-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v61)) (v1 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_v52) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x20000 : Shape := ⟨2, ![8192, 20000]⟩
abbrev S2x262144 : Shape := ⟨2, ![2, 262144]⟩
abbrev S20000x256 : Shape := ⟨2, ![20000, 256]⟩
abbrev S256 : Shape := ⟨1, ![256]⟩
abbrev S256x64 : Shape := ⟨2, ![256, 64]⟩
abbrev S64 : Shape := ⟨1, ![64]⟩
abbrev S64x256 : Shape := ⟨2, ![64, 256]⟩
abbrev S256x20000 : Shape := ⟨2, ![256, 20000]⟩
abbrev S20000 : Shape := ⟨1, ![20000]⟩
abbrev S_ : Shape := ⟨0, ![]⟩

class Facts : Prop where
  bcast_S_S8192x20000 : S_.BroadcastsInDim S8192x20000 (![] : Fin 0 → Fin S8192x20000.rank)
  reducesTo_S8192x20000_S_d0_1 : S8192x20000.ReducesTo [0, 1] S_
  h_S_ : 0 < S_.numel
  bcast_S_S20000x256 : S_.BroadcastsInDim S20000x256 (![] : Fin 0 → Fin S20000x256.rank)
  reducesTo_S20000x256_S_d0_1 : S20000x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x256 : S_.BroadcastsInDim S64x256 (![] : Fin 0 → Fin S64x256.rank)
  reducesTo_S64x256_S_d0_1 : S64x256.ReducesTo [0, 1] S_
  bcast_S_S256x20000 : S_.BroadcastsInDim S256x20000 (![] : Fin 0 → Fin S256x20000.rank)
  reducesTo_S256x20000_S_d0_1 : S256x20000.ReducesTo [0, 1] S_
  bcast_S_S20000 : S_.BroadcastsInDim S20000 (![] : Fin 0 → Fin S20000.rank)
  reducesTo_S20000_S_d0 : S20000.ReducesTo [0] S_

variable [Facts]

def fn_part2 {F : FTy → Type} [FloatOps F] (main_arg8 : FVec F S256x20000 .f32) (main_arg9 : FVec F S20000 .f32) (main_v33 : IVec S_ 1) : IVec S_ 1 :=
  let main_v34 : FVec F S256x20000 .f32 := Host.absf main_arg8
  let main_cst_12 : FVec F S_ .f32 := constant S_ .f32 0x7F800000#32
  let main_v35 : FVec F S256x20000 .f32 := broadcastInDim S256x20000 ![] bcast_S_S256x20000 main_cst_12
  let main_v36 : IVec S256x20000 1 := cmpf .olt main_v34 main_v35
  let main_c_13 : IVec S_ 1 := constantI S_ 1 1#1
  let main_v37 : IVec S_ 1 := (fun x v => Host.reduce IntOp.andi x v reducesTo_S256x20000_S_d0_1 h_S_) main_v36 main_c_13
  let main_v38 : IVec S_ 1 := andi main_v33 main_v37
  let main_v39 : FVec F S20000 .f32 := Host.absf main_arg9
  let main_cst_14 : FVec F S_ .f32 := constant S_ .f32 0x7F800000#32
  let main_v40 : FVec F S20000 .f32 := broadcastInDim S20000 ![] bcast_S_S20000 main_cst_14
  let main_v41 : IVec S20000 1 := cmpf .olt main_v39 main_v40
  let main_c_15 : IVec S_ 1 := constantI S_ 1 1#1
  let main_v42 : IVec S_ 1 := (fun x v => Host.reduce IntOp.andi x v reducesTo_S20000_S_d0 h_S_) main_v41 main_c_15
  let main_v43 : IVec S_ 1 := andi main_v38 main_v42
  main_v43

def fn_part1 {F : FTy → Type} [FloatOps F] (main_arg5 : FVec F S64 .f32) (main_arg6 : FVec F S64x256 .f32) (main_arg7 : FVec F S256 .f32) (main_arg8 : FVec F S256x20000 .f32) (main_arg9 : FVec F S20000 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x256 .f32 := Host.absf main_arg6
  let main_cst_8 : FVec F S_ .f32 := constant S_ .f32 0x7F800000#32
  let main_v25 : FVec F S64x256 .f32 := broadcastInDim S64x256 ![] bcast_S_S64x256 main_cst_8
  let main_v26 : IVec S64x256 1 := cmpf .olt main_v24 main_v25
  let main_c_9 : IVec S_ 1 := constantI S_ 1 1#1
  let main_v27 : IVec S_ 1 := (fun x v => Host.reduce IntOp.andi x v reducesTo_S64x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_v33

def fn {F : FTy → Type} [FloatOps F] (main_arg0 : FVec F S8192x20000 .f32) (main_arg1 : IVec S2x262144 32) (main_arg2 : FVec F S20000x256 .f32) (main_arg3 : FVec F S256 .f32) (main_arg4 : FVec F S256x64 .f32) (main_arg5 : FVec F S64 .f32) (main_arg6 : FVec F S64x256 .f32) (main_arg7 : FVec F S256 .f32) (main_arg8 : FVec F S256x20000 .f32) (main_arg9 : FVec F S20000 .f32) : IVec S_ 1 :=
  let main_v0 : FVec F S8192x20000 .f32 := Host.absf main_arg0
  let main_cst : FVec F S_ .f32 := constant S_ .f32 0x7F800000#32
  let main_v1 : FVec F S8192x20000 .f32 := broadcastInDim S8192x20000 ![] bcast_S_S8192x20000 main_cst
  let main_v2 : IVec S8192x20000 1 := cmpf .olt main_v0 main_v1
  let main_c : IVec S_ 1 := constantI S_ 1 1#1
  let main_v3 : IVec S_ 1 := (fun x v => Host.reduce IntOp.andi x v reducesTo_S8192x20000_S_d0_1 h_S_) main_v2 main_c
  let main_v4 : FVec F S20000x256 .f32 := Host.absf main_arg2
  let main_cst_0 : FVec F S_ .f32 := constant S_ .f32 0x7F800000#32
  let main_v5 : FVec F S20000x256 .f32 := broadcastInDim S20000x256 ![] bcast_S_S20000x256 main_cst_0
  let main_v6 : IVec S20000x256 1 := cmpf .olt main_v4 main_v5
  let main_c_1 : IVec S_ 1 := constantI S_ 1 1#1
  let main_v7 : IVec S_ 1 := (fun x v => Host.reduce IntOp.andi x v reducesTo_S20000x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x64 .f32 := Host.absf main_arg4
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg5 main_arg6 main_arg7 main_arg8 main_arg9 main_v13 main_v16
-- ==== Kernel.lean ====
abbrev S8192x20000 : Shape := ⟨2, ![8192, 20000]⟩
abbrev S2x262144 : Shape := ⟨2, ![2, 262144]⟩
abbrev S20000x256 : Shape := ⟨2, ![20000, 256]⟩
abbrev S256 : Shape := ⟨1, ![256]⟩
abbrev S256x64 : Shape := ⟨2, ![256, 64]⟩
abbrev S64 : Shape := ⟨1, ![64]⟩
abbrev S64x256 : Shape := ⟨2, ![64, 256]⟩
abbrev S256x20000 : Shape := ⟨2, ![256, 20000]⟩
abbrev S20000 : Shape := ⟨1, ![20000]⟩
abbrev S8192x256 : Shape := ⟨2, ![8192, 256]⟩
abbrev S128x20000 : Shape := ⟨2, ![128, 20000]⟩
abbrev S128x256 : Shape := ⟨2, ![128, 256]⟩
abbrev S8192 : Shape := ⟨1, ![8192]⟩
abbrev S1x262144 : Shape := ⟨2, ![1, 262144]⟩
abbrev S262144 : Shape := ⟨1, ![262144]⟩
abbrev S270336 : Shape := ⟨1, ![270336]⟩
abbrev S_ : Shape := ⟨0, ![]⟩
abbrev S270336x1 : Shape := ⟨2, ![270336, 1]⟩
abbrev S270336x256 : Shape := ⟨2, ![270336, 256]⟩
abbrev S1x256 : Shape := ⟨2, ![1, 256]⟩
abbrev S8192x64 : Shape := ⟨2, ![8192, 64]⟩
abbrev S1x64 : Shape := ⟨2, ![1, 64]⟩
abbrev S1x20000 : Shape := ⟨2, ![1, 20000]⟩
abbrev S1024x256 : Shape := ⟨2, ![1024, 256]⟩
abbrev S256x2048 : Shape := ⟨2, ![256, 2048]⟩
abbrev S1x2048 : Shape := ⟨2, ![1, 2048]⟩
abbrev S1024x2048 : Shape := ⟨2, ![1024, 2048]⟩

abbrev nBuf : Space → Nat
  | .hbm => 89
  | .vmem => 13
  | .smem => 0
  | _ => 0

abbrev bufTy : (tb : Table) → Fin (tcTables nBuf tb) → BufTy
  | .hbm, ⟨0, _⟩ => ⟨S8192x20000, .f32⟩
  | .hbm, ⟨1, _⟩ => ⟨S2x262144, .i32⟩
  | .hbm, ⟨2, _⟩ => ⟨S20000x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S64x256, .f32⟩
  | .hbm, ⟨7, _⟩ => ⟨S256, .f32⟩
  | .hbm, ⟨8, _⟩ => ⟨S256x20000, .f32⟩
  | .hbm, ⟨9, _⟩ => ⟨S20000, .f32⟩
  | .hbm, ⟨10, _⟩ => ⟨S20000x256, .bf16⟩
  | .hbm, ⟨11, _⟩ => ⟨S8192x256, .f32⟩
  | .hbm, ⟨12, _⟩ => ⟨S8192, .i32⟩
  | .hbm, ⟨13, _⟩ => ⟨S1x262144, .i32⟩
  | .hbm, ⟨14, _⟩ => ⟨S262144, .i32⟩
  | .hbm, ⟨15, _⟩ => ⟨S270336, .i32⟩
  | .hbm, ⟨16, _⟩ => ⟨S1x262144, .i32⟩
  | .hbm, ⟨17, _⟩ => ⟨S262144, .i32⟩
  | .hbm, ⟨18, _⟩ => ⟨S270336, .i32⟩
  | .hbm, ⟨19, _⟩ => ⟨S_, .f32⟩
  | .hbm, ⟨20, _⟩ => ⟨S270336, .f32⟩
  | .hbm, ⟨21, _⟩ => ⟨S_, .f32⟩
  | .hbm, ⟨22, _⟩ => ⟨S8192, .f32⟩
  | .hbm, ⟨23, _⟩ => ⟨S270336x1, .i32⟩
  | .hbm, ⟨24, _⟩ => ⟨S8192, .f32⟩
  | .hbm, ⟨25, _⟩ => ⟨S_, .f32⟩
  | .hbm, ⟨26, _⟩ => ⟨S8192, .f32⟩
  | .hbm, ⟨27, _⟩ => ⟨S8192, .i1⟩
  | .hbm, ⟨28, _⟩ => ⟨S8192, .f32⟩
  | .hbm, ⟨29, _⟩ => ⟨S_, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .i32⟩
  | .hbm, ⟨34, _⟩ => ⟨S270336, .i32⟩
  | .hbm, ⟨35, _⟩ => ⟨S270336, .i1⟩
  | .hbm, ⟨36, _⟩ => ⟨S_, .i32⟩
  | .hbm, ⟨37, _⟩ => ⟨S270336, .i32⟩
  | .hbm, ⟨38, _⟩ => ⟨S270336, .i32⟩
  | .hbm, ⟨39, _⟩ => ⟨S270336, .i32⟩
  | .hbm, ⟨40, _⟩ => ⟨S270336x1, .i32⟩
  | .hbm, ⟨41, _⟩ => ⟨S270336, .f32⟩
  | .hbm, ⟨42, _⟩ => ⟨S_, .i32⟩
  | .hbm, ⟨43, _⟩ => ⟨S270336, .i32⟩
  | .hbm, ⟨44, _⟩ => ⟨S270336, .i1⟩
  | .hbm, ⟨45, _⟩ => ⟨S_, .i32⟩
  | .hbm, ⟨46, _⟩ => ⟨S270336, .i32⟩
  | .hbm, ⟨47, _⟩ => ⟨S270336, .i32⟩
  | .hbm, ⟨48, _⟩ => ⟨S270336, .i32⟩
  | .hbm, ⟨49, _⟩ => ⟨S270336x1, .i32⟩
  | .hbm, ⟨50, _⟩ => ⟨S270336, .f32⟩
  | .hbm, ⟨51, _⟩ => ⟨S270336, .f32⟩
  | .hbm, ⟨52, _⟩ => ⟨S_, .i32⟩
  | .hbm, ⟨53, _⟩ => ⟨S270336, .i32⟩
  | .hbm, ⟨54, _⟩ => ⟨S270336, .i1⟩
  | .hbm, ⟨55, _⟩ => ⟨S_, .i32⟩
  | .hbm, ⟨56, _⟩ => ⟨S270336, .i32⟩
  | .hbm, ⟨57, _⟩ => ⟨S270336, .i32⟩
  | .hbm, ⟨58, _⟩ => ⟨S270336, .i32⟩
  | .hbm, ⟨59, _⟩ => ⟨S270336x1, .i32⟩
  | .hbm, ⟨60, _⟩ => ⟨S270336x256, .f32⟩
  | .hbm, ⟨61, _⟩ => ⟨S270336x1, .f32⟩
  | .hbm, ⟨62, _⟩ => ⟨S270336x256, .f32⟩
  | .hbm, ⟨63, _⟩ => ⟨S270336x256, .f32⟩
  | .hbm, ⟨64, _⟩ => ⟨S_, .f32⟩
  | .hbm, ⟨65, _⟩ => ⟨S8192x256, .f32⟩
  | .hbm, ⟨66, _⟩ => ⟨S270336x1, .i32⟩
  | .hbm, ⟨67, _⟩ => ⟨S8192x256, .f32⟩
  | .hbm, ⟨68, _⟩ => ⟨S1x256, .f32⟩
  | .hbm, ⟨69, _⟩ => ⟨S8192x256, .f32⟩
  | .hbm, ⟨70, _⟩ => ⟨S8192x256, .f32⟩
  | .hbm, ⟨71, _⟩ => ⟨S_, .f32⟩
  | .hbm, ⟨72, _⟩ => ⟨S8192x256, .f32⟩
  | .hbm, ⟨73, _⟩ => ⟨S8192x256, .f32⟩
  | .hbm, ⟨74, _⟩ => ⟨S8192x64, .f32⟩
  | .hbm, ⟨75, _⟩ => ⟨S1x64, .f32⟩
  | .hbm, ⟨76, _⟩ => ⟨S8192x64, .f32⟩
  | .hbm, ⟨77, _⟩ => ⟨S8192x64, .f32⟩
  | .hbm, ⟨78, _⟩ => ⟨S8192x256, .f32⟩
  | .hbm, ⟨79, _⟩ => ⟨S1x256, .f32⟩
  | .hbm, ⟨80, _⟩ => ⟨S8192x256, .f32⟩
  | .hbm, ⟨81, _⟩ => ⟨S8192x256, .f32⟩
  | .hbm, ⟨82, _⟩ => ⟨S_, .f32⟩
  | .hbm, ⟨83, _⟩ => ⟨S8192x256, .f32⟩
  | .hbm, ⟨84, _⟩ => ⟨S8192x256, .f32⟩
  | .hbm, ⟨85, _⟩ => ⟨S8192x256, .bf16⟩
  | .hbm, ⟨86, _⟩ => ⟨S256x20000, .bf16⟩
  | .hbm, ⟨87, _⟩ => ⟨S1x20000, .f32⟩
  | .hbm, ⟨88, _⟩ => ⟨S8192x20000, .f32⟩
  | .local _ .vmem, ⟨0, _⟩ => ⟨S128x20000, .f32⟩
  | .local _ .vmem, ⟨1, _⟩ => ⟨S128x20000, .f32⟩
  | .local _ .vmem, ⟨2, _⟩ => ⟨S20000x256, .bf16⟩
  | .local _ .vmem, ⟨3, _⟩ => ⟨S128x256, .f32⟩
  | .local _ .vmem, ⟨4, _⟩ => ⟨S128x256, .f32⟩
  | .local _ .vmem, ⟨5, _⟩ => ⟨S1024x256, .bf16⟩
  | .local _ .vmem, ⟨6, _⟩ => ⟨S1024x256, .bf16⟩
  | .local _ .vmem, ⟨7, _⟩ => ⟨S256x2048, .bf16⟩
  | .local _ .vmem, ⟨8, _⟩ => ⟨S256x2048, .bf16⟩
  | .local _ .vmem, ⟨9, _⟩ => ⟨S1x2048, .f32⟩
  | .local _ .vmem, ⟨10, _⟩ => ⟨S1x2048, .f32⟩
  | .local _ .vmem, ⟨11, _⟩ => ⟨S1024x2048, .f32⟩
  | .local _ .vmem, ⟨12, _⟩ => ⟨S1024x2048, .f32⟩
  | _, _ => ⟨S8192x20000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_call1_cst : Ref sig .tc := ⟨.hbm, 71, rfl⟩
abbrev main_call1_v0 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_call2_cst : Ref sig .tc := ⟨.hbm, 82, rfl⟩
abbrev main_call2_v0 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x20000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S20000x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![10, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S256x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  bitsLt_bf16_f32 : FTy.bits .bf16 < FTy.bits .f32
  inb_S128x20000_S128x20000_0_0 : ∀ a, (![0, 0] : Fin 2 → Nat) a + S128x20000.size a ≤ S128x20000.size a
  h_S128x20000 : 0 < S128x20000.numel
  inb_S20000x256_S20000x256_0_0 : ∀ a, (![0, 0] : Fin 2 → Nat) a + S20000x256.size a ≤ S20000x256.size a
  h_S20000x256 : 0 < S20000x256.numel
  shapeCasts_S20000x256_S20000x256 : S20000x256.ShapeCasts S20000x256
  inb_S128x256_S128x256_0_0 : ∀ a, (![0, 0] : Fin 2 → Nat) a + S128x256.size a ≤ S128x256.size a
  h_S128x256 : 0 < S128x256.numel
  slices_S2x262144_S1x262144_0_0 : S2x262144.Slices ![0, 0] S1x262144
  shapeCasts_S1x262144_S262144 : S1x262144.ShapeCasts S262144
  concatenates_S262144_S8192_S270336_d0 : Shape.Concatenates [S262144, S8192] S270336 0
  slices_S2x262144_S1x262144_1_0 : S2x262144.Slices ![1, 0] S1x262144
  bcast_S_S270336 : S_.BroadcastsInDim S270336 (![] : Fin 0 → Fin S270336.rank)
  bcast_S_S8192 : S_.BroadcastsInDim S8192 (![] : Fin 0 → Fin S8192.rank)
  bcast_S270336_S270336x1_0 : S270336.BroadcastsInDim S270336x1 (![0] : Fin 1 → Fin S270336x1.rank)
  bcast_S270336x1_S270336x256_0_1 : S270336x1.BroadcastsInDim S270336x256 (![0, 1] : Fin 2 → Fin S270336x256.rank)
  bcast_S_S8192x256 : S_.BroadcastsInDim S8192x256 (![] : Fin 0 → Fin S8192x256.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  shapeCasts_S20000_S1x20000 : S20000.ShapeCasts S1x20000
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  inb_S1024x2048_S1024x2048_0_0 : ∀ a, (![0, 0] : Fin 2 → Nat) a + S1024x2048.size a ≤ S1024x2048.size a
  h_S1024x2048 : 0 < S1024x2048.numel
  dot_S128x20000_S20000x256_S128x256_1_0_0_1_n_n_wf : DotDims.WF S128x20000 S20000x256 S128x256 [1] [0] [0] [1] [] []
  scatter_S8192_S270336x1_S270336_n_0_0_1_wf : ScatterDims.WF S8192 S270336x1 S270336 [] [0] [0] 1
  gather_S8192_S270336x1_S270336_n_0_n_n_0_1_1_wf : GatherDims.WF S8192 S270336x1 S270336 [] [0] [] [0] [] 1 ![1]
  gather_S8192x256_S270336x1_S270336x256_1_0_n_n_0_1_1256_wf : GatherDims.WF S8192x256 S270336x1 S270336x256 [1] [0] [] [0] [] 1 ![1, 256]
  scatter_S8192x256_S270336x1_S270336x256_1_0_0_1_wf : ScatterDims.WF S8192x256 S270336x1 S270336x256 [1] [0] [0] 1
  dot_S8192x256_S256x64_S8192x64_1_0_0_1_n_n_wf : DotDims.WF S8192x256 S256x64 S8192x64 [1] [0] [0] [1] [] []
  dot_S8192x64_S64x256_S8192x256_1_0_0_1_n_n_wf : DotDims.WF S8192x64 S64x256 S8192x256 [1] [0] [0] [1] [] []
  dot_S1024x256_S256x2048_S1024x2048_1_0_0_1_n_n_wf : DotDims.WF S1024x256 S256x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x20000.size a ≤ S8192x20000.size a
  hwx0_0 : ∀ i : grid0.Coords, EltTy.bits .f32 = 32 ∨ (Rect.block (s := S8192x20000) S128x20000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S20000x256.size a ≤ S20000x256.size a
  hwx0_1 : ∀ i : grid0.Coords, EltTy.bits .bf16 = 32 ∨ (Rect.block (s := S20000x256) S20000x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S8192x256.size a
  hwx0_2 : ∀ i : grid0.Coords, EltTy.bits .f32 = 32 ∨ (Rect.block (s := S8192x256) S128x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x256.size a
  hwx1_0 : ∀ i : grid1.Coords, EltTy.bits .bf16 = 32 ∨ (Rect.block (s := S8192x256) S1024x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S256x2048.size a < S256x20000.size a
  hwx1_1 : ∀ i : grid1.Coords, EltTy.bits .bf16 = 32 ∨ (Rect.unit (s := S256x20000) (fun a => cc1_transform_1 i a * S256x2048.size a) (fun a => (Pipeline.Clip.of (cc1_transform_1 i a) (S256x2048.size a) (S256x20000.size a)).extent (S256x2048.size a)) fun a => Pipeline.Clip.inb (Pipeline.Clip.ok_of (hstart1_1 i a))).WholeWords (EltTy.packing .bf16)
  hwxs1_1 : ∀ i : grid1.Coords, EltTy.bits .bf16 = 32 ∨ (Rect.unit (s := S256x2048) (fun _ => 0) (fun a => (Pipeline.Clip.of (cc1_transform_1 i a) (S256x2048.size a) (S256x20000.size a)).extent (S256x2048.size a)) fun a => (Nat.zero_add _).trans_le (Pipeline.Clip.extent_le (Pipeline.Clip.ok_of (hstart1_1 i a)))).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S1x2048.size a < S1x20000.size a
  hwx1_2 : ∀ i : grid1.Coords, EltTy.bits .f32 = 32 ∨ (Rect.unit (s := S1x20000) (fun a => cc1_transform_2 i a * S1x2048.size a) (fun a => (Pipeline.Clip.of (cc1_transform_2 i a) (S1x2048.size a) (S1x20000.size a)).extent (S1x2048.size a)) fun a => Pipeline.Clip.inb (Pipeline.Clip.ok_of (hstart1_2 i a))).WholeWords (EltTy.packing .f32)
  hwxs1_2 : ∀ i : grid1.Coords, EltTy.bits .f32 = 32 ∨ (Rect.unit (s := S1x2048) (fun _ => 0) (fun a => (Pipeline.Clip.of (cc1_transform_2 i a) (S1x2048.size a) (S1x20000.size a)).extent (S1x2048.size a)) fun a => (Nat.zero_add _).trans_le (Pipeline.Clip.extent_le (Pipeline.Clip.ok_of (hstart1_2 i a)))).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hstart1_3 : ∀ (i : grid1.Coords) a, cc1_transform_3 i a * S1024x2048.size a < S8192x20000.size a
  hwx1_3 : ∀ i : grid1.Coords, EltTy.bits .f32 = 32 ∨ (Rect.unit (s := S8192x20000) (fun a => cc1_transform_3 i a * S1024x2048.size a) (fun a => (Pipeline.Clip.of (cc1_transform_3 i a) (S1024x2048.size a) (S8192x20000.size a)).extent (S1024x2048.size a)) fun a => Pipeline.Clip.inb (Pipeline.Clip.ok_of (hstart1_3 i a))).WholeWords (EltTy.packing .f32)
  hwxs1_3 : ∀ i : grid1.Coords, EltTy.bits .f32 = 32 ∨ (Rect.unit (s := S1024x2048) (fun _ => 0) (fun a => (Pipeline.Clip.of (cc1_transform_3 i a) (S1024x2048.size a) (S8192x20000.size a)).extent (S1024x2048.size a)) fun a => (Nat.zero_add _).trans_le (Pipeline.Clip.extent_le (Pipeline.Clip.ok_of (hstart1_3 i a)))).WholeWords (EltTy.packing .f32)

variable [Facts₀]

def dot_S128x20000_S20000x256_S128x256_1_0_0_1_n_n : DotDims S128x20000 S20000x256 S128x256 where
  lhsContracting := [1]
  rhsContracting := [0]
  lhsNonContracting := [0]
  rhsNonContracting := [1]
  lhsBatch := []
  rhsBatch := []
  wf := dot_S128x20000_S20000x256_S128x256_1_0_0_1_n_n_wf
def scatter_S8192_S270336x1_S270336_n_0_0_1 : ScatterDims S8192 S270336x1 S270336 where
  updateWindowDims := []
  insertedWindowDims := [0]
  scatterDimsToOperandDims := [0]
  indexVectorDim := 1
  wf := scatter_S8192_S270336x1_S270336_n_0_0_1_wf
def gather_S8192_S270336x1_S270336_n_0_n_n_0_1_1 : GatherDims S8192 S270336x1 S270336 where
  offsetDims := []
  collapsedSliceDims := [0]
  operandBatchingDims := []
  startIndicesBatchingDims := []
  startIndexMap := [0]
  indexVectorDim := 1
  sliceSizes := ![1]
  wf := gather_S8192_S270336x1_S270336_n_0_n_n_0_1_1_wf
def gather_S8192x256_S270336x1_S270336x256_1_0_n_n_0_1_1256 : GatherDims S8192x256 S270336x1 S270336x256 where
  offsetDims := [1]
  collapsedSliceDims := [0]
  operandBatchingDims := []
  startIndicesBatchingDims := []
  startIndexMap := [0]
  indexVectorDim := 1
  sliceSizes := ![1, 256]
  wf := gather_S8192x256_S270336x1_S270336x256_1_0_n_n_0_1_1256_wf
def scatter_S8192x256_S270336x1_S270336x256_1_0_0_1 : ScatterDims S8192x256 S270336x1 S270336x256 where
  updateWindowDims := [1]
  insertedWindowDims := [0]
  scatterDimsToOperandDims := [0]
  indexVectorDim := 1
  wf := scatter_S8192x256_S270336x1_S270336x256_1_0_0_1_wf
def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf
def dot_S8192x64_S64x256_S8192x256_1_0_0_1_n_n : DotDims S8192x64 S64x256 S8192x256 where
  lhsContracting := [1]
  rhsContracting := [0]
  lhsNonContracting := [0]
  rhsNonContracting := [1]
  lhsBatch := []
  rhsBatch := []
  wf := dot_S8192x64_S64x256_S8192x256_1_0_0_1_n_n_wf
def dot_S1024x256_S256x2048_S1024x2048_1_0_0_1_n_n : DotDims S1024x256 S256x2048 S1024x2048 where
  lhsContracting := [1]
  rhsContracting := [0]
  lhsNonContracting := [0]
  rhsNonContracting := [1]
  lhsBatch := []
  rhsBatch := []
  wf := dot_S1024x256_S256x2048_S1024x2048_1_0_0_1_n_n_wf

abbrev win0_0 : Pipeline.Window sig grid0 :=
  Pipeline.Window.ofSpec (Memref.whole main_arg0) S128x20000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S20000x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v58) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpecClip (Memref.whole main_v59) S256x2048.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v60) S1x2048.size cc1_transform_2 reads1_2 false false 2 stage1_2 sem1_2
    hrank1 hreads1_2 hstart1_2 nbuf1_2 (Memref.isWhole_whole _) hwx1_2 hwxs1_2 hstage1_2

abbrev win1_3 : Pipeline.Window sig grid1 :=
  Pipeline.Window.ofSpecClip (Memref.whole main_v61) S1024x2048.size cc1_transform_3 reads1_3 true false 2 stage1_3 sem1_3
    hrank1 hreads1_3 hstart1_3 nbuf1_3 (Memref.isWhole_whole _) hwx1_3 hwxs1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x20000 : Shape := ⟨2, ![8192, 20000]⟩
abbrev S2x262144 : Shape := ⟨2, ![2, 262144]⟩
abbrev S20000x256 : Shape := ⟨2, ![20000, 256]⟩
abbrev S256 : Shape := ⟨1, ![256]⟩
abbrev S256x64 : Shape := ⟨2, ![256, 64]⟩
abbrev S64 : Shape := ⟨1, ![64]⟩
abbrev S64x256 : Shape := ⟨2, ![64, 256]⟩
abbrev S256x20000 : Shape := ⟨2, ![256, 20000]⟩
abbrev S20000 : Shape := ⟨1, ![20000]⟩
abbrev S8192x256 : Shape := ⟨2, ![8192, 256]⟩
abbrev S8192 : Shape := ⟨1, ![8192]⟩
abbrev S1x262144 : Shape := ⟨2, ![1, 262144]⟩
abbrev S262144 : Shape := ⟨1, ![262144]⟩
abbrev S270336 : Shape := ⟨1, ![270336]⟩
abbrev S_ : Shape := ⟨0, ![]⟩
abbrev S270336x1 : Shape := ⟨2, ![270336, 1]⟩
abbrev S270336x256 : Shape := ⟨2, ![270336, 256]⟩
abbrev S1x256 : Shape := ⟨2, ![1, 256]⟩
abbrev S8192x64 : Shape := ⟨2, ![8192, 64]⟩
abbrev S1x64 : Shape := ⟨2, ![1, 64]⟩
abbrev S1x20000 : Shape := ⟨2, ![1, 20000]⟩

abbrev nBuf : Space → Nat
  | .hbm => 88
  | .vmem => 0
  | .smem => 0
  | _ => 0

abbrev bufTy : (tb : Table) → Fin (tcTables nBuf tb) → BufTy
  | .hbm, ⟨0, _⟩ => ⟨S8192x20000, .f32⟩
  | .hbm, ⟨1, _⟩ => ⟨S2x262144, .i32⟩
  | .hbm, ⟨2, _⟩ => ⟨S20000x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S64x256, .f32⟩
  | .hbm, ⟨7, _⟩ => ⟨S256, .f32⟩
  | .hbm, ⟨8, _⟩ => ⟨S256x20000, .f32⟩
  | .hbm, ⟨9, _⟩ => ⟨S20000, .f32⟩
  | .hbm, ⟨10, _⟩ => ⟨S8192x256, .f32⟩
  | .hbm, ⟨11, _⟩ => ⟨S8192, .i32⟩
  | .hbm, ⟨12, _⟩ => ⟨S1x262144, .i32⟩
  | .hbm, ⟨13, _⟩ => ⟨S262144, .i32⟩
  | .hbm, ⟨14, _⟩ => ⟨S270336, .i32⟩
  | .hbm, ⟨15, _⟩ => ⟨S1x262144, .i32⟩
  | .hbm, ⟨16, _⟩ => ⟨S262144, .i32⟩
  | .hbm, ⟨17, _⟩ => ⟨S270336, .i32⟩
  | .hbm, ⟨18, _⟩ => ⟨S_, .f32⟩
  | .hbm, ⟨19, _⟩ => ⟨S270336, .f32⟩
  | .hbm, ⟨20, _⟩ => ⟨S_, .f32⟩
  | .hbm, ⟨21, _⟩ => ⟨S8192, .f32⟩
  | .hbm, ⟨22, _⟩ => ⟨S270336x1, .i32⟩
  | .hbm, ⟨23, _⟩ => ⟨S8192, .f32⟩
  | .hbm, ⟨24, _⟩ => ⟨S_, .f32⟩
  | .hbm, ⟨25, _⟩ => ⟨S8192, .f32⟩
  | .hbm, ⟨26, _⟩ => ⟨S8192, .i1⟩
  | .hbm, ⟨27, _⟩ => ⟨S8192, .f32⟩
  | .hbm, ⟨28, _⟩ => ⟨S_, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S_, .i32⟩
  | .hbm, ⟨33, _⟩ => ⟨S270336, .i32⟩
  | .hbm, ⟨34, _⟩ => ⟨S270336, .i1⟩
  | .hbm, ⟨35, _⟩ => ⟨S_, .i32⟩
  | .hbm, ⟨36, _⟩ => ⟨S270336, .i32⟩
  | .hbm, ⟨37, _⟩ => ⟨S270336, .i32⟩
  | .hbm, ⟨38, _⟩ => ⟨S270336, .i32⟩
  | .hbm, ⟨39, _⟩ => ⟨S270336x1, .i32⟩
  | .hbm, ⟨40, _⟩ => ⟨S270336, .f32⟩
  | .hbm, ⟨41, _⟩ => ⟨S_, .i32⟩
  | .hbm, ⟨42, _⟩ => ⟨S270336, .i32⟩
  | .hbm, ⟨43, _⟩ => ⟨S270336, .i1⟩
  | .hbm, ⟨44, _⟩ => ⟨S_, .i32⟩
  | .hbm, ⟨45, _⟩ => ⟨S270336, .i32⟩
  | .hbm, ⟨46, _⟩ => ⟨S270336, .i32⟩
  | .hbm, ⟨47, _⟩ => ⟨S270336, .i32⟩
  | .hbm, ⟨48, _⟩ => ⟨S270336x1, .i32⟩
  | .hbm, ⟨49, _⟩ => ⟨S270336, .f32⟩
  | .hbm, ⟨50, _⟩ => ⟨S270336, .f32⟩
  | .hbm, ⟨51, _⟩ => ⟨S_, .i32⟩
  | .hbm, ⟨52, _⟩ => ⟨S270336, .i32⟩
  | .hbm, ⟨53, _⟩ => ⟨S270336, .i1⟩
  | .hbm, ⟨54, _⟩ => ⟨S_, .i32⟩
  | .hbm, ⟨55, _⟩ => ⟨S270336, .i32⟩
  | .hbm, ⟨56, _⟩ => ⟨S270336, .i32⟩
  | .hbm, ⟨57, _⟩ => ⟨S270336, .i32⟩
  | .hbm, ⟨58, _⟩ => ⟨S270336x1, .i32⟩
  | .hbm, ⟨59, _⟩ => ⟨S270336x256, .f32⟩
  | .hbm, ⟨60, _⟩ => ⟨S270336x1, .f32⟩
  | .hbm, ⟨61, _⟩ => ⟨S270336x256, .f32⟩
  | .hbm, ⟨62, _⟩ => ⟨S270336x256, .f32⟩
  | .hbm, ⟨63, _⟩ => ⟨S_, .f32⟩
  | .hbm, ⟨64, _⟩ => ⟨S8192x256, .f32⟩
  | .hbm, ⟨65, _⟩ => ⟨S270336x1, .i32⟩
  | .hbm, ⟨66, _⟩ => ⟨S8192x256, .f32⟩
  | .hbm, ⟨67, _⟩ => ⟨S1x256, .f32⟩
  | .hbm, ⟨68, _⟩ => ⟨S8192x256, .f32⟩
  | .hbm, ⟨69, _⟩ => ⟨S8192x256, .f32⟩
  | .hbm, ⟨70, _⟩ => ⟨S_, .f32⟩
  | .hbm, ⟨71, _⟩ => ⟨S8192x256, .f32⟩
  | .hbm, ⟨72, _⟩ => ⟨S8192x256, .f32⟩
  | .hbm, ⟨73, _⟩ => ⟨S8192x64, .f32⟩
  | .hbm, ⟨74, _⟩ => ⟨S1x64, .f32⟩
  | .hbm, ⟨75, _⟩ => ⟨S8192x64, .f32⟩
  | .hbm, ⟨76, _⟩ => ⟨S8192x64, .f32⟩
  | .hbm, ⟨77, _⟩ => ⟨S8192x256, .f32⟩
  | .hbm, ⟨78, _⟩ => ⟨S1x256, .f32⟩
  | .hbm, ⟨79, _⟩ => ⟨S8192x256, .f32⟩
  | .hbm, ⟨80, _⟩ => ⟨S8192x256, .f32⟩
  | .hbm, ⟨81, _⟩ => ⟨S_, .f32⟩
  | .hbm, ⟨82, _⟩ => ⟨S8192x256, .f32⟩
  | .hbm, ⟨83, _⟩ => ⟨S8192x256, .f32⟩
  | .hbm, ⟨84, _⟩ => ⟨S8192x20000, .f32⟩
  | .hbm, ⟨85, _⟩ => ⟨S1x20000, .f32⟩
  | .hbm, ⟨86, _⟩ => ⟨S8192x20000, .f32⟩
  | .hbm, ⟨87, _⟩ => ⟨S8192x20000, .f32⟩
  | _, _ => ⟨S8192x20000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_call2_cst : Ref sig .tc := ⟨.hbm, 81, rfl⟩
abbrev main_call2_v0 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  concatenates_S262144_S8192_S270336_d0 : Shape.Concatenates [S262144, S8192] S270336 0
  slices_S2x262144_S1x262144_1_0 : S2x262144.Slices ![1, 0] S1x262144
  bcast_S_S270336 : S_.BroadcastsInDim S270336 (![] : Fin 0 → Fin S270336.rank)
  bcast_S_S8192 : S_.BroadcastsInDim S8192 (![] : Fin 0 → Fin S8192.rank)
  bcast_S270336_S270336x1_0 : S270336.BroadcastsInDim S270336x1 (![0] : Fin 1 → Fin S270336x1.rank)
  bcast_S270336x1_S270336x256_0_1 : S270336x1.BroadcastsInDim S270336x256 (![0, 1] : Fin 2 → Fin S270336x256.rank)
  bcast_S_S8192x256 : S_.BroadcastsInDim S8192x256 (![] : Fin 0 → Fin S8192x256.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S20000_S1x20000_1 : S20000.BroadcastsInDim S1x20000 (![1] : Fin 1 → Fin S1x20000.rank)
  bcast_S1x20000_S8192x20000_0_1 : S1x20000.BroadcastsInDim S8192x20000 (![0, 1] : Fin 2 → Fin S8192x20000.rank)
  dot_S8192x20000_S20000x256_S8192x256_1_0_0_1_n_n_wf : DotDims.WF S8192x20000 S20000x256 S8192x256 [1] [0] [0] [1] [] []
  scatter_S8192_S270336x1_S270336_n_0_0_1_wf : ScatterDims.WF S8192 S270336x1 S270336 [] [0] [0] 1
  gather_S8192_S270336x1_S270336_n_0_n_n_0_1_1_wf : GatherDims.WF S8192 S270336x1 S270336 [] [0] [] [0] [] 1 ![1]
  gather_S8192x256_S270336x1_S270336x256_1_0_n_n_0_1_1256_wf : GatherDims.WF S8192x256 S270336x1 S270336x256 [1] [0] [] [0] [] 1 ![1, 256]
  scatter_S8192x256_S270336x1_S270336x256_1_0_0_1_wf : ScatterDims.WF S8192x256 S270336x1 S270336x256 [1] [0] [0] 1
  dot_S8192x256_S256x64_S8192x64_1_0_0_1_n_n_wf : DotDims.WF S8192x256 S256x64 S8192x64 [1] [0] [0] [1] [] []
  dot_S8192x64_S64x256_S8192x256_1_0_0_1_n_n_wf : DotDims.WF S8192x64 S64x256 S8192x256 [1] [0] [0] [1] [] []
  dot_S8192x256_S256x20000_S8192x20000_1_0_0_1_n_n_wf : DotDims.WF S8192x256 S256x20000 S8192x20000 [1] [0] [0] [1] [] []

variable [Facts₀]

def dot_S8192x20000_S20000x256_S8192x256_1_0_0_1_n_n : DotDims S8192x20000 S20000x256 S8192x256 where
  lhsContracting := [1]
  rhsContracting := [0]
  lhsNonContracting := [0]
  rhsNonContracting := [1]
  lhsBatch := []
  rhsBatch := []
  wf := dot_S8192x20000_S20000x256_S8192x256_1_0_0_1_n_n_wf
def scatter_S8192_S270336x1_S270336_n_0_0_1 : ScatterDims S8192 S270336x1 S270336 where
  updateWindowDims := []
  insertedWindowDims := [0]
  scatterDimsToOperandDims := [0]
  indexVectorDim := 1
  wf := scatter_S8192_S270336x1_S270336_n_0_0_1_wf
def gather_S8192_S270336x1_S270336_n_0_n_n_0_1_1 : GatherDims S8192 S270336x1 S270336 where
  offsetDims := []
  collapsedSliceDims := [0]
  operandBatchingDims := []
  startIndicesBatchingDims := []
  startIndexMap := [0]
  indexVectorDim := 1
  sliceSizes := ![1]
  wf := gather_S8192_S270336x1_S270336_n_0_n_n_0_1_1_wf
def gather_S8192x256_S270336x1_S270336x256_1_0_n_n_0_1_1256 : GatherDims S8192x256 S270336x1 S270336x256 where
  offsetDims := [1]
  collapsedSliceDims := [0]
  operandBatchingDims := []
  startIndicesBatchingDims := []
  startIndexMap := [0]
  indexVectorDim := 1
  sliceSizes := ![1, 256]
  wf := gather_S8192x256_S270336x1_S270336x256_1_0_n_n_0_1_1256_wf
def scatter_S8192x256_S270336x1_S270336x256_1_0_0_1 : ScatterDims S8192x256 S270336x1 S270336x256 where
  updateWindowDims := [1]
  insertedWindowDims := [0]
  scatterDimsToOperandDims := [0]
  indexVectorDim := 1
  wf := scatter_S8192x256_S270336x1_S270336x256_1_0_0_1_wf
def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf
def dot_S8192x64_S64x256_S8192x256_1_0_0_1_n_n : DotDims S8192x64 S64x256 S8192x256 where
  lhsContracting := [1]
  rhsContracting := [0]
  lhsNonContracting := [0]
  rhsNonContracting := [1]
  lhsBatch := []
  rhsBatch := []
  wf := dot_S8192x64_S64x256_S8192x256_1_0_0_1_n_n_wf
def dot_S8192x256_S256x20000_S8192x20000_1_0_0_1_n_n : DotDims S8192x256 S256x20000 S8192x20000 where
  lhsContracting := [1]
  rhsContracting := [0]
  lhsNonContracting := [0]
  rhsNonContracting := [1]
  lhsBatch := []
  rhsBatch := []
  wf := dot_S8192x256_S256x20000_S8192x20000_1_0_0_1_n_n_wf

class Facts : Prop extends Facts₀ where

variable [Facts]
-- ==== Proof.KRegion0.lean ====
/-
  The projection region: one grid point multiplies a 128-row block of x (all 20000 columns, rounded to
  bf16 on the way in) by the whole weight matrix into a 128 x 256 block of the result. What each window's
  staging buffer holds before and after the body at a point, and that the body runs there.
-/
import proofs.«115824_j30597347017287_1_alg».proof.Proof.Gen.Kernel.Launch
import proofs.«115824_j30597347017287_1_alg».proof.Proof.Gen.Kernel.Skeleton
import proofs.«115824_j30597347017287_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 128 x 20000 block of x, the whole weight matrix, the whole 128 x 256 result block. -/
abbrev rX : Rect S128x20000 := Rect.unit (s := S128x20000) ![0, 0] S128x20000.size inb_S128x20000_S128x20000_0_0
abbrev rW : Rect S20000x256 := Rect.unit (s := S20000x256) ![0, 0] S20000x256.size inb_S20000x256_S20000x256_0_0
abbrev rO : Rect S128x256 := Rect.unit (s := S128x256) ![0, 0] S128x256.size inb_S128x256_S128x256_0_0

/-- What the body leaves in the result's staging buffer: its one store, of the product of the two blocks. -/
def out0_2 (x0 : Vec F S128x20000 .f32) (x1 : Vec F S20000x256 .bf16) : Vec F S128x256 .f32 :=
  View.canon [⟨rO, k0_pay1 (View.ld x0 rX) (View.ld x1 rW)⟩]

/-- The one store covers the buffer. -/
theorem cover0_2 (p0 : Vec F S128x256 .f32) (y : S128x256.Idx) :
    ∃ pc ∈ ([⟨rO, p0⟩] : List (View.Piece (Elt F) S128x256 .f32)), y ∈ pc.1.set :=
  View.cover_of_tiled [⟨rO, p0⟩] S128x256.size (by rfl) y

/-- The body on whole staging memrefs: the two inputs unchanged, the result's buffer at `out0_2` of them. -/
theorem sound_kernel0 (c : Dev nD) (E : Set ℕ) (i : grid0.Coords)
    (arg1 : Memref sig .tc .vmem S128x20000 .f32) (harg1 : arg1.IsWhole)
    (arg2 : Memref sig .tc .vmem S20000x256 .bf16) (harg2 : arg2.IsWhole)
    (arg3 : Memref sig .tc .vmem S128x256 .f32) (harg3 : arg3.IsWhole)
    (x0 : Vec F S128x20000 .f32) (x1 : Vec F S20000x256 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The region's proof data on core `c`: the arrays as found; after the body each input's buffer at its block and
    the result's at the product of the two blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- An input window that is never cut and never idle, under a body that leaves its block in place, holds its
    block at every point: where it is not fetched its block index has not moved since the point before. Stated
    for any proof data whose array is the entry contents and whose body leaves the block. -/
private theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
private theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`: the invariant, what the core owes, and each window's current
    staging buffer at what it holds before the body, -/
private def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns: the same with each buffer at what the body leaves. -/
private def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the two inputs' buffers hold their blocks, so the body's triple applies; the invariant
    and what the core owes pass through unread. -/
private theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation0 (c : Dev nD) : BodyObligation (dat0 (F := F) V c) (defs₀ (F := F)) Variants.none () Set.univ := fun t => by
  rw [bigSep_W0, bigSep_W0]
  exact sound_body0 V c t

end Cert.Kernel.R0

end
-- ==== Proof.KRun.lean ====
/-
  The program's run as ten items: a host stretch, the projection region, seven host stretches, the decoder region.
  Between two items the core holds every unscoped buffer at a named valuation; the projection region's result is named
  (the product of its blocks), so the decoder region is entered at contents fixed before the run; of the decoder
  region's own arrays the run keeps what its proof data's relations allow, and of every other unscoped buffer the
  contents the last host stretch left. Both the frame (at any float family, the decoder's relations saying nothing) and
  the values (over the extended reals, the decoder's data exact) are read off this one run.
-/
import proofs.«115824_j30597347017287_1_alg».proof.Proof.KRegion0
import proofs.«115824_j30597347017287_1_alg».proof.Proof.Gen.Kernel.Regions
import Idealize.ShloMosaic.Lib.Pipeline.Regions
import Idealize.ShloMosaic.Lib.Pipeline.Cells

set_option maxRecDepth 16384

noncomputable section

namespace Cert.Kernel.Run

open Cert.Kernel Cert.Kernel.Gen Cert.Kernel.R0
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c

/-- The buffers as the projection region finds them: the launch contents after the first host stretch. -/
abbrev VA (c : Dev nD) (b : Ref sig .tc) : Buf (Elt F) ((c : Thread nD τ).loc b) := V1 m c b

/-- What the regions leave: the projection's result array at the write-backs of its 64 blocks. -/
def outs : Outs (F := F) := fun _ r c =>
  if h : main_v1 = r then h ▸ ((dat0 (VA m) c).arrAt 2 cfg0.N : Buf (Elt F) ((c : Thread nD τ).loc main_v1)) else V0 m c r

theorem outs_v1 (J : ℕ) (c : Dev nD) : outs m J main_v1 c = (dat0 (VA m) c).arrAt 2 cfg0.N := by
  unfold outs; rw [dif_pos rfl]

/-- The buffers as the decoder region finds them. -/
abbrev VB (c : Dev nD) (b : Ref sig .tc) : Buf (Elt F) ((c : Thread nD τ).loc b) := V9 m (outs m) c b

/-- The unscoped buffers that are none of the decoder region's arrays. -/
abbrev restRefs : Finset (Ref sig .tc) := (Finset.univ.filter fun b : Ref sig .tc => ¬ b.isScoped) \ Finset.univ.image (Pipeline.arrRef spec1)

section Data

variable (rd1 : (c : Dev nD) → RDat τ (Elt F) Unit ℕ (UR sig nD τ) ℕ cfg1 c)

/-- The prefetched tables' admissible contents: no pallas_call has a table. -/
abbrev adm : (p : Fin 2) → (pcfgs (F := F) p).Adm := fun p => (cfgs p).toPCfg_adm

/-- Every region's proof data: the projection's exact data read relationally, the decoder's as given. -/
def rdats : (p : Fin 2) → (c : Dev nD) → RDat τ (Elt F) Unit ℕ (UR sig nD τ) ℕ (Pipeline.pin (pcfgs (F := F)) adm p) c
  | ⟨0, _⟩ => fun c => (dat0 (VA m) c).toR
  | ⟨1, _⟩ => fun c => rd1 c

/-- An exact family beside it, for the library's lemma that puts a region's arrays back among the unscoped buffers
    (it reads the family's shares only). -/
def dfam : (p : Fin 2) → (c : Dev nD) → Dat τ (Elt F) Unit ℕ (UR sig nD τ) ℕ (Pipeline.pin (pcfgs (F := F)) adm p) c
  | ⟨0, _⟩ => fun c => dat0 (VA m) c
  | ⟨1, _⟩ => fun c => { A := fun w => VB m c (Pipeline.arrRef spec1 w), after := fun w t => Dat.unnamed w t,
                         Φ := fun _ => Pipeline.ΦA spec1 c, q := fun _ => fullShare, owed := fun _ => 0 }

/-- After the projection region: its inputs as found, its result at the write-backs; everything else as found. -/
theorem hF0 (c : Dev nD) (w : Fin cfg0.W) : (dat0 (VA m) c).arrAt w cfg0.N = V2 m (outs m) c (Pipeline.arrRef spec0 w) := by
  match w with
  | ⟨0, _⟩ => exact ((dat0 (VA m) c).arrAt_in 0 rfl _).trans ((A_eq0 (VA m) c 0).trans (V2_of m (outs m) c main_arg0 (by decide)).symm)
  | ⟨1, _⟩ => exact ((dat0 (VA m) c).arrAt_in 1 rfl _).trans ((A_eq0 (VA m) c 1).trans (V2_of m (outs m) c main_v0 (by decide)).symm)
  | ⟨2, _⟩ =>
    show _ = Function.update (V1 m c) (Proc.devRef .tc main_v1) (outs m 2 main_v1 c) (Proc.devRef .tc main_v1)
    rw [Function.update_self, outs_v1]
    rfl
theorem hrest0 (c : Dev nD) : ∀ b, b ∉ Finset.univ.image (Pipeline.arrRef spec0) → V2 m (outs m) c b = VA m c b := fun b hb =>
  V2_of m (outs m) c b (by
    intro h
    rw [List.mem_singleton] at h
    exact hb (Finset.mem_image.mpr ⟨2, Finset.mem_univ _, h.symm⟩))

variable (hA1 : ∀ c w, (rd1 c).A w = VB m c (Pipeline.arrRef spec1 w))
  (hΦ1 : ∀ c t, (rd1 c).Φ t = Pipeline.ΦA spec1 c)
  (hq1 : ∀ c w, (rd1 c).q w = fullShare) (how1 : ∀ c t, (rd1 c).owed t = 0)
  (hrec1 : ∀ c t, (rd1 c).recorded t = Set.univ)
  (hbody1 : ∀ c, (rd1 c).BodyObligation (defs₀ (F := F)) 𝒱₀ () Set.univ)

/-- The last thread state: the decoder region's arrays at what its data allow, every other unscoped buffer as the
    last host stretch left it, the generator register at some state. -/
abbrev Tₙ (c : Dev nD) : sProp 𝕄 :=
  iprop((rdats m rd1 1 c).arraysAt cfg1.N
    ∗ Pipeline.unscopedRest (Ix := Unit) (Name := ℕ) (U := UR sig nD τ) (Lvl := ℕ) spec1 c (VB m c) ∗ ∃ r, prngReg c r)

set_option backward.isDefEq.respectTransparency.types false in
/-- The projection region as an item: entered from every unscoped buffer at `V1`, left at `V2`. -/
def reg0 : Pipeline.RDat.RegionSeg (pcfgs (F := F)) adm (rdats m rd1) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m) c).toR
  hwaits := Pipeline.RDat.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.RDat.arrays_of_unscopedBufs (p := 0) (pcfgs (F := F)) adm (rdats m rd1) launch0.win launch0.arr_whole c
      ((rdats m rd1 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m rd1 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m rd1 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (dfam m) ((dfam m 0 c).share_full fun _ => rfl)
      (VA m c) (fun b => V2 m (outs m) c b) ((dat0 (VA m) c).arrAt · cfg0.N) (hF0 m c) (hrest0 m c)
    rw [Pipeline.unscopedBufs_held] at hjoin
    have hpost : (rdats m rd1 0 c).arraysAt cfg0.N ⊢ ((dfam m 0 c).arrays ((dat0 (VA m) c).arrAt · cfg0.N) : sProp 𝕄) :=
      (dat0 (VA m) c).toR_arraysAt_post cfg0.N
    iintro ⟨Ha, HO, HY, Hrest⟩
    ihave Ha' := hpost $$ Ha
    imodintro
    isplitl [Ha' Hrest]
    · iapply hjoin; isplitl [Ha'] <;> iassumption
    isplitl [HY]; · iexact HY
    unfold Pipeline.RDat.owesAt Pipeline.owesWithin
    icases HO with ⟨%W, -, HO⟩; iexists W; iexact HO

set_option backward.isDefEq.respectTransparency.types false in
/-- The decoder region as an item: entered from every unscoped buffer at `V9`, left at the last thread state. -/
def reg1 : Pipeline.RDat.RegionSeg (pcfgs (F := F)) adm (rdats m rd1) () defs₀ 𝒱₀ L lv 1 where
  win := launch1.win.to₀
  block_pos := launch1.block_pos
  stage_whole := launch1.stage_whole
  K := PEmpty
  osem k := k.elim
  ho := Pipeline.OwnSemFacts.none _
  hbody c := hbody1 c
  hwaits := Pipeline.RDat.hwaits_of_owed_zero _ _ _ _ L lv 1 fun c t => how1 c t
  pre c := iprop(StableHlo.held (c : Thread nD τ) (Pipeline.ucRefs τ sig) (V9 m (outs m) c) ∗ R c)
  post c := iprop(Tₙ m rd1 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := Pipeline.RDat.arrays_of_unscopedBufs (p := 1) (pcfgs (F := F)) adm (rdats m rd1) launch1.win launch1.arr_whole c
      ((rd1 c).share_full (hq1 c)) (VB m c) (hA1 c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      rw [show (rdats m rd1 1 c).owed 0 = 0 from how1 c 0]
      icases HO with ⟨%W, HO⟩; iexists W; isplitr
      · ipureintro; exact fun _ _ => Or.inl (by rw [show (rdats m rd1 1 c).recorded 0 = Set.univ from hrec1 c 0]; trivial)
      iexact HO
    isplitl [Hp]; · iexact Hp
    iexact Hrest
  hin c := by
    rw [show (rdats m rd1 1 c).Φ 0 = Pipeline.ΦA spec1 c from hΦ1 c 0]; unfold Pipeline.ΦA
    iintro ⟨Hp, -, Hr⟩
    isplitl [Hr]; · iexact Hr
    iexact Hp
  hout c := by
    rw [Pipeline.ownSems0_none, show (rdats m rd1 1 c).Φ (Fin.last _) = Pipeline.ΦA spec1 c from hΦ1 c _]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest HY]
    · isplitl [Ha]; · iexact Ha
      isplitl [Hrest]; · iexact Hrest
      iexact HY
    unfold Pipeline.RDat.owesAt Pipeline.owesWithin
    rw [show (rdats m rd1 1 c).owed (Fin.last _) = 0 from how1 c _]
    icases HO with ⟨%W, -, HO⟩; iexists W; iexact HO

/-- The program's ten items in order. -/
abbrev segs : List (Pipeline.RDat.Seg (pcfgs (F := F)) adm (rdats m rd1) () defs₀ 𝒱₀ L lv) :=
  [ .host (seg0 m 𝒱₀ L lv E), .region (reg0 m rd1),
    .host (seg2 m (outs m) 𝒱₀ L lv E), .host (seg3 m (outs m) 𝒱₀ L lv E), .host (seg4 m (outs m) 𝒱₀ L lv E),
    .host (seg5 m (outs m) 𝒱₀ L lv E), .host (seg6 m (outs m) 𝒱₀ L lv E), .host (seg7 m (outs m) 𝒱₀ L lv E),
    .host (seg8 m (outs m) 𝒱₀ L lv E), .region (reg1 m rd1 hA1 hΦ1 hq1 how1 hrec1 hbody1) ]

/-- What the run leaves, core by core: the decoder region's arrays at contents its data allow, every other unscoped
    buffer at what the last host stretch left. -/
def QY (c : Dev nD) (s : MemSt nD τ sig (Elt F)) : Prop :=
  (∀ w : Fin cfg1.W, (rd1 c).ArrAt w cfg1.N (s.mem ((cfg1.win w).arr.view.loc (c : Thread nD τ))))
  ∧ ∀ b ∈ restRefs, s.mem ((c : Thread nD τ).loc b) = VB m c b

include hA1 hΦ1 hq1 how1 hrec1 hbody1 in
set_option backward.isDefEq.respectTransparency.types false in
/-- THE RUN: every weakly fair execution of the program from memory `m` with zero counters terminates, nothing
    faulting, in a state that satisfies `QY` on every core. -/
theorem run_gen : θ_run defs (onTc (τ := τ) (main (F := F))) ⟨m, fun _ => 0, ρ⟩ (fun r => ∀ c : Dev nD, QY m rd1 c r.2) :=
  Pipeline.RDat.θ_run_regions_kit (pcfgs (F := F)) adm (rdats m rd1) () cellOf_inj emb₁ defs₀ 𝒱₀ L lv m ρ main
    (segs m rd1 hA1 hΦ1 hq1 how1 hrec1 hbody1)
    (fun c Q => by
      rewrite [main_chain c, Pipeline.RDat.Seg.run_eq_chain,
        show (segs m rd1 hA1 hΦ1 hq1 how1 hrec1 hbody1).map Pipeline.RDat.Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          Prog.lift (.customCall (Pipeline.entry 1) ()) ] from rfl]
      exact .rfl)
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m rd1)
    (hch := ⟨fun _ => .rfl, fun _ => .rfl, fun _ => .rfl, fun _ => .rfl, fun _ => .rfl, fun _ => .rfl, fun _ => .rfl,
      fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := QY m rd1)
    (hfin := fun c s' => by
      iintro ⟨⟨Ha, Hrest, -⟩, HSI⟩
      ihave H1 := (Pipeline.RDat.arrays_read (pcfgs (F := F)) adm (rdats m rd1) (p := 1) launch1.arr_whole c cfg1.N s') $$ [Ha HSI]
      · isplitl [Ha] <;> iassumption
      icases H1 with ⟨%h1, HSI⟩
      unfold Pipeline.unscopedRest
      ihave H2 := (pointsTo_read_all restRefs (fun b => (c : Thread nD τ).loc b) (VB m c) s') $$ [Hrest HSI]
      · isplitl [Hrest] <;> iassumption
      icases H2 with ⟨%h2, HSI⟩
      imodintro
      isplitr
      · ipureintro; exact ⟨h1, h2⟩
      iexact HSI)
    (hQ := fun s h c => h c)

end Data

end Cert.Kernel.Run

end
-- ==== Proof.KRegion1Body.lean ====
/-
  The decoder region: one grid point multiplies a 1024 x 256 block of the hidden activations by a 256 x 2048
  block of the weights and adds the 1 x 2048 block of the bias along the rows. The body on whole staging buffers.
-/
import proofs.«115824_j30597347017287_1_alg».proof.Proof.Gen.Kernel.Launch
import proofs.«115824_j30597347017287_1_alg».proof.Proof.Gen.Kernel.Skeleton
import proofs.«115824_j30597347017287_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

/-- The whole staging blocks: activations, weights, bias, result. -/
abbrev rA : Rect S1024x256 := Rect.unit (s := S1024x256) ![0, 0] S1024x256.size inb_S1024x256_S1024x256_0_0
abbrev rB : Rect S256x2048 := Rect.unit (s := S256x2048) ![0, 0] S256x2048.size inb_S256x2048_S256x2048_0_0
abbrev rC : Rect S1x2048 := Rect.unit (s := S1x2048) ![0, 0] S1x2048.size inb_S1x2048_S1x2048_0_0
abbrev rD : Rect S1024x2048 := Rect.unit (s := S1024x2048) ![0, 0] S1024x2048.size inb_S1024x2048_S1024x2048_0_0

/-- What the body leaves in the result's staging buffer: its one store, product plus bias. -/
def out1_3 (x0 : Vec F S1024x256 .bf16) (x1 : Vec F S256x2048 .bf16) (x2 : Vec F S1x2048 .f32) : Vec F S1024x2048 .f32 :=
  View.canon [⟨rD, k1_pay1 (View.ld x0 rA) (View.ld x1 rB) (View.ld x2 rC)⟩]

theorem cover1_3 (p0 : Vec F S1024x2048 .f32) (y : S1024x2048.Idx) :
    ∃ pc ∈ ([⟨rD, p0⟩] : List (View.Piece (Elt F) S1024x2048 .f32)), y ∈ pc.1.set :=
  View.cover_of_tiled [⟨rD, p0⟩] S1024x2048.size (by rfl) y

/-- The body on whole staging memrefs holding ANY contents `x0 x1 x2` (and anything in the result's): it runs, leaves
    the three inputs as they were and the result's buffer at `out1_3 x0 x1 x2`. -/
theorem sound_kernel1 (c : Dev nD) (E : Set ℕ) (i : grid1.Coords)
    (arg2 : Memref sig .tc .vmem S1024x256 .bf16) (harg2 : arg2.IsWhole)
    (arg3 : Memref sig .tc .vmem S256x2048 .bf16) (harg3 : arg3.IsWhole)
    (arg4 : Memref sig .tc .vmem S1x2048 .f32) (harg4 : arg4.IsWhole)
    (arg5 : Memref sig .tc .vmem S1024x2048 .f32) (harg5 : arg5.IsWhole)
    (x0 : Vec F S1024x256 .bf16) (x1 : Vec F S256x2048 .bf16) (x2 : Vec F S1x2048 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1__dec_kernel i arg2 harg2 arg3 harg3 arg4 harg4 arg5 harg5) K := by
  simp only [cc1__dec_kernel_eq_skeleton]; unfold cc1__dec_kernel_skel
  unfold owns
  -- each input's buffer is a function agreeing with its contents; the result's holds anything
  iintro ⟨⟨%f0, %hf0, H0⟩, ⟨%f1, %hf1, H1⟩, ⟨%f2, %hf2, H2⟩, ⟨%d3, %f3, -, H3⟩, Hk⟩
  subst hf0; subst hf1; subst hf2
  -- three whole loads, the dead load of the result's buffer, the one whole store
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  -- the whole store over any contents reads back as the canonical form of its one piece
  iexists _; isplitr
  swap; · iexact H3
  ipureintro
  exact View.read_writes_eq_canon _ _ _ (cover1_3 _)

-- the TensorCore's buffer contents when the region is entered
variable (V : (c : Dev nD) → (b : Ref sig .tc) → Buf (Elt F) ((c : Thread nD τ).loc b))

/-- Window `w`'s block at grid point `t` — its part inside the array — read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

end Cert.Kernel.R1

end
-- ==== Proof.KRegion1Free.lean ====
/-
  The decoder region with nothing said of what the body leaves: relational proof data whose relations hold of any
  contents. Enough for a claim that reads none of the region's arrays afterwards (every argument array stays out of
  the region's reach: the region's arrays are host results).
-/
import proofs.«115824_j30597347017287_1_alg».proof.Proof.KRegion1Body

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The arrays as found; of every window's buffer after the body, nothing. -/
def rdFree (c : Dev nD) : RDat τ (Elt F) Unit ℕ (UR sig nD τ) ℕ cfg1 c where
  A w := V c (Pipeline.arrRef spec1 w)
  after _ _ _ _ := True
  Φ _ := Pipeline.ΦA spec1 c
  q _ := fullShare
  owed _ := 0

theorem rdFree_A (c : Dev nD) (w : Fin cfg1.W) : (rdFree V c).A w = V c (Pipeline.arrRef spec1 w) := rfl

/-- The body runs at every point whatever the four staging buffers hold. -/
theorem body_obligation1_free (c : Dev nD) : (rdFree (F := F) V c).BodyObligation (defs₀ (F := F)) Variants.none () Set.univ := by
  intro t Y _
  -- the four windows' buffers, one by one
  rw [bigSep_W1, bigSep_W1]
  -- the program is the body on the four current staging memrefs
  show _ ⊢ wp frame (wpE (defs₀ (F := F)) Variants.none c none) Set.univ (bodyAt1 t) _
  -- the invariant and what the core owes do not move over a point
  rw [show (rdFree V c).Φ t.succ = (rdFree V c).Φ t.castSucc from rfl,
    show (rdFree V c).owesAt () t.succ = (rdFree V c).owesAt () t.castSucc from rfl]
  iintro ⟨HΦ, Ho, H0, H1, H2, H3⟩
  iapply (sound_kernel1 c Set.univ _ _ _ _ _ _ _ _ _ (Y 0) (Y 1) (Y 2) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  -- each buffer goes back at what it holds; the relation asks nothing
  isplitl [H0]
  · iexists (Y 0); isplitr; · ipureintro; trivial
    iexact H0
  isplitl [H1]
  · iexists (Y 1); isplitr; · ipureintro; trivial
    iexact H1
  isplitl [H2]
  · iexists (Y 2); isplitr; · ipureintro; trivial
    iexact H2
  iexists (out1_3 (Y 0) (Y 1) (Y 2)); isplitr; · ipureintro; trivial
  iexact H3

end Cert.Kernel.R1

end
-- ==== Proof.KFrame.lean ====
/-
  The frame: every weakly fair execution of the program terminates, nothing faulting, and every argument array ends
  as launched. No host stretch writes an argument and neither region may change one (the projection reads x through an
  input window; the decoder's arrays are host results), so each argument's buffer, read off the run's last valuation, walks
  back to the launch memory.
-/
import proofs.«115824_j30597347017287_1_alg».proof.Proof.KRun
import proofs.«115824_j30597347017287_1_alg».proof.Proof.KRegion1Free

set_option maxRecDepth 16384

noncomputable section

namespace Cert.Kernel.Frame

open Cert.Kernel Cert.Kernel.Gen Cert.Kernel.Run Cert.Kernel.R1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

variable (m : (ℓ : Loc nD τ sig) → Buf (Elt F) ℓ) (ρ : Dev nD → PrngReg)

/-- The run with the decoder region's data saying nothing of what its body leaves. -/
theorem run_free : θ_run defs (onTc (τ := τ) (main (F := F))) ⟨m, fun _ => 0, ρ⟩
    (fun r => ∀ c : Dev nD, QY m (rdFree (VB m)) c r.2) :=
  run_gen m ρ (rdFree (VB m)) (fun _ _ => rfl) (fun _ _ => rfl) (fun _ _ => rfl) (fun _ _ => rfl) (fun _ _ => rfl)
    (fun c => body_obligation1_free (VB m) c)

theorem VB_main_arg0 (c : Dev nD) : VB m c main_arg0 = m ((c : Thread nD τ).loc main_arg0) :=
  (V10_of m (outs m) c main_arg0 (by decide)).symm.trans (V10_main_arg0 m (outs m) c)
theorem VB_main_arg1 (c : Dev nD) : VB m c main_arg1 = m ((c : Thread nD τ).loc main_arg1) :=
  (V10_of m (outs m) c main_arg1 (by decide)).symm.trans (V10_main_arg1 m (outs m) c)
theorem VB_main_arg2 (c : Dev nD) : VB m c main_arg2 = m ((c : Thread nD τ).loc main_arg2) :=
  (V10_of m (outs m) c main_arg2 (by decide)).symm.trans (V10_main_arg2 m (outs m) c)
theorem VB_main_arg3 (c : Dev nD) : VB m c main_arg3 = m ((c : Thread nD τ).loc main_arg3) :=
  (V10_of m (outs m) c main_arg3 (by decide)).symm.trans (V10_main_arg3 m (outs m) c)
theorem VB_main_arg4 (c : Dev nD) : VB m c main_arg4 = m ((c : Thread nD τ).loc main_arg4) :=
  (V10_of m (outs m) c main_arg4 (by decide)).symm.trans (V10_main_arg4 m (outs m) c)
theorem VB_main_arg5 (c : Dev nD) : VB m c main_arg5 = m ((c : Thread nD τ).loc main_arg5) :=
  (V10_of m (outs m) c main_arg5 (by decide)).symm.trans (V10_main_arg5 m (outs m) c)
theorem VB_main_arg6 (c : Dev nD) : VB m c main_arg6 = m ((c : Thread nD τ).loc main_arg6) :=
  (V10_of m (outs m) c main_arg6 (by decide)).symm.trans (V10_main_arg6 m (outs m) c)
theorem VB_main_arg7 (c : Dev nD) : VB m c main_arg7 = m ((c : Thread nD τ).loc main_arg7) :=
  (V10_of m (outs m) c main_arg7 (by decide)).symm.trans (V10_main_arg7 m (outs m) c)
theorem VB_main_arg8 (c : Dev nD) : VB m c main_arg8 = m ((c : Thread nD τ).loc main_arg8) :=
  (V10_of m (outs m) c main_arg8 (by decide)).symm.trans (V10_main_arg8 m (outs m) c)
theorem VB_main_arg9 (c : Dev nD) : VB m c main_arg9 = m ((c : Thread nD τ).loc main_arg9) :=
  (V10_of m (outs m) c main_arg9 (by decide)).symm.trans (V10_main_arg9 m (outs m) c)

theorem mem_rest (b : Ref sig .tc) (h : b ∈ restRefs := by decide) : b ∈ restRefs := h

/-- The frame claim's statement at any float family. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)) :=
  (θ_run defs _ _).mono (fun r h c =>
    ⟨((h c).2 main_arg0 (by decide)).trans (VB_main_arg0 m c),
     ((h c).2 main_arg1 (by decide)).trans (VB_main_arg1 m c),
     ((h c).2 main_arg2 (by decide)).trans (VB_main_arg2 m c),
     ((h c).2 main_arg3 (by decide)).trans (VB_main_arg3 m c),
     ((h c).2 main_arg4 (by decide)).trans (VB_main_arg4 m c),
     ((h c).2 main_arg5 (by decide)).trans (VB_main_arg5 m c),
     ((h c).2 main_arg6 (by decide)).trans (VB_main_arg6 m c),
     ((h c).2 main_arg7 (by decide)).trans (VB_main_arg7 m c),
     ((h c).2 main_arg8 (by decide)).trans (VB_main_arg8 m c),
     ((h c).2 main_arg9 (by decide)).trans (VB_main_arg9 m c)⟩)
    (run_free m ρ)

end Cert.Kernel.Frame

end
-- ==== Proof.Region0.lean ====
/-
  The projection region: one grid point multiplies a 128-row block of x (all 20000 columns, rounded to
  bf16 on the way in) by the whole weight matrix into a 128 x 256 block of the result. What each window's
  staging buffer holds before and after the body at a point, and that the body runs there.
-/
import proofs.«115824_j30597347017287_1_alg».proof.Proof.Gen.KernelIdeal.Launch
import proofs.«115824_j30597347017287_1_alg».proof.Proof.Gen.KernelIdeal.Skeleton
import proofs.«115824_j30597347017287_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 128 x 20000 block of x, the whole weight matrix, the whole 128 x 256 result block. -/
abbrev rX : Rect S128x20000 := Rect.unit (s := S128x20000) ![0, 0] S128x20000.size inb_S128x20000_S128x20000_0_0
abbrev rW : Rect S20000x256 := Rect.unit (s := S20000x256) ![0, 0] S20000x256.size inb_S20000x256_S20000x256_0_0
abbrev rO : Rect S128x256 := Rect.unit (s := S128x256) ![0, 0] S128x256.size inb_S128x256_S128x256_0_0

/-- What the body leaves in the result's staging buffer: its one store, of the product of the two blocks. -/
def out0_2 (x0 : Vec F S128x20000 .f32) (x1 : Vec F S20000x256 .bf16) : Vec F S128x256 .f32 :=
  View.canon [⟨rO, k0_pay1 (View.ld x0 rX) (View.ld x1 rW)⟩]

/-- The one store covers the buffer. -/
theorem cover0_2 (p0 : Vec F S128x256 .f32) (y : S128x256.Idx) :
    ∃ pc ∈ ([⟨rO, p0⟩] : List (View.Piece (Elt F) S128x256 .f32)), y ∈ pc.1.set :=
  View.cover_of_tiled [⟨rO, p0⟩] S128x256.size (by rfl) y

/-- The body on whole staging memrefs: the two inputs unchanged, the result's buffer at `out0_2` of them. -/
theorem sound_kernel0 (c : Dev nD) (E : Set ℕ) (i : grid0.Coords)
    (arg1 : Memref sig .tc .vmem S128x20000 .f32) (harg1 : arg1.IsWhole)
    (arg2 : Memref sig .tc .vmem S20000x256 .bf16) (harg2 : arg2.IsWhole)
    (arg3 : Memref sig .tc .vmem S128x256 .f32) (harg3 : arg3.IsWhole)
    (x0 : Vec F S128x20000 .f32) (x1 : Vec F S20000x256 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The region's proof data on core `c`: the arrays as found; after the body each input's buffer at its block and
    the result's at the product of the two blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- An input window that is never cut and never idle, under a body that leaves its block in place, holds its
    block at every point: where it is not fetched its block index has not moved since the point before. Stated
    for any proof data whose array is the entry contents and whose body leaves the block. -/
private theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
private theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`: the invariant, what the core owes, and each window's current
    staging buffer at what it holds before the body, -/
private def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns: the same with each buffer at what the body leaves. -/
private def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the two inputs' buffers hold their blocks, so the body's triple applies; the invariant
    and what the core owes pass through unread. -/
private theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation0 (c : Dev nD) : BodyObligation (dat0 (F := F) V c) (defs₀ (F := F)) Variants.none () Set.univ := fun t => by
  rw [bigSep_W0, bigSep_W0]
  exact sound_body0 V c t

end Cert.KernelIdeal.R0

end
-- ==== Proof.Run.lean ====
/-
  The program's run as ten items: a host stretch, the projection region, seven host stretches, the decoder region.
  Between two items the core holds every unscoped buffer at a named valuation; the projection region's result is named
  (the product of its blocks), so the decoder region is entered at contents fixed before the run; of the decoder
  region's own arrays the run keeps what its proof data's relations allow, and of every other unscoped buffer the
  contents the last host stretch left. Both the frame (at any float family, the decoder's relations saying nothing) and
  the values (over the extended reals, the decoder's data exact) are read off this one run.
-/
import proofs.«115824_j30597347017287_1_alg».proof.Proof.Region0
import proofs.«115824_j30597347017287_1_alg».proof.Proof.Gen.KernelIdeal.Regions
import Idealize.ShloMosaic.Lib.Pipeline.Regions
import Idealize.ShloMosaic.Lib.Pipeline.Cells

set_option maxRecDepth 16384

noncomputable section

namespace Cert.KernelIdeal.Run

open Cert.KernelIdeal Cert.KernelIdeal.Gen Cert.KernelIdeal.R0
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c

/-- The buffers as the projection region finds them: the launch contents after the first host stretch. -/
abbrev VA (c : Dev nD) (b : Ref sig .tc) : Buf (Elt F) ((c : Thread nD τ).loc b) := V1 m c b

/-- What the regions leave: the projection's result array at the write-backs of its 64 blocks. -/
def outs : Outs (F := F) := fun _ r c =>
  if h : main_v1 = r then h ▸ ((dat0 (VA m) c).arrAt 2 cfg0.N : Buf (Elt F) ((c : Thread nD τ).loc main_v1)) else V0 m c r

theorem outs_v1 (J : ℕ) (c : Dev nD) : outs m J main_v1 c = (dat0 (VA m) c).arrAt 2 cfg0.N := by
  unfold outs; rw [dif_pos rfl]

/-- The buffers as the decoder region finds them. -/
abbrev VB (c : Dev nD) (b : Ref sig .tc) : Buf (Elt F) ((c : Thread nD τ).loc b) := V9 m (outs m) c b

/-- The unscoped buffers that are none of the decoder region's arrays. -/
abbrev restRefs : Finset (Ref sig .tc) := (Finset.univ.filter fun b : Ref sig .tc => ¬ b.isScoped) \ Finset.univ.image (Pipeline.arrRef spec1)

section Data

variable (rd1 : (c : Dev nD) → RDat τ (Elt F) Unit ℕ (UR sig nD τ) ℕ cfg1 c)

/-- The prefetched tables' admissible contents: no pallas_call has a table. -/
abbrev adm : (p : Fin 2) → (pcfgs (F := F) p).Adm := fun p => (cfgs p).toPCfg_adm

/-- Every region's proof data: the projection's exact data read relationally, the decoder's as given. -/
def rdats : (p : Fin 2) → (c : Dev nD) → RDat τ (Elt F) Unit ℕ (UR sig nD τ) ℕ (Pipeline.pin (pcfgs (F := F)) adm p) c
  | ⟨0, _⟩ => fun c => (dat0 (VA m) c).toR
  | ⟨1, _⟩ => fun c => rd1 c

/-- An exact family beside it, for the library's lemma that puts a region's arrays back among the unscoped buffers
    (it reads the family's shares only). -/
def dfam : (p : Fin 2) → (c : Dev nD) → Dat τ (Elt F) Unit ℕ (UR sig nD τ) ℕ (Pipeline.pin (pcfgs (F := F)) adm p) c
  | ⟨0, _⟩ => fun c => dat0 (VA m) c
  | ⟨1, _⟩ => fun c => { A := fun w => VB m c (Pipeline.arrRef spec1 w), after := fun w t => Dat.unnamed w t,
                         Φ := fun _ => Pipeline.ΦA spec1 c, q := fun _ => fullShare, owed := fun _ => 0 }

/-- After the projection region: its inputs as found, its result at the write-backs; everything else as found. -/
theorem hF0 (c : Dev nD) (w : Fin cfg0.W) : (dat0 (VA m) c).arrAt w cfg0.N = V2 m (outs m) c (Pipeline.arrRef spec0 w) := by
  match w with
  | ⟨0, _⟩ => exact ((dat0 (VA m) c).arrAt_in 0 rfl _).trans ((A_eq0 (VA m) c 0).trans (V2_of m (outs m) c main_arg0 (by decide)).symm)
  | ⟨1, _⟩ => exact ((dat0 (VA m) c).arrAt_in 1 rfl _).trans ((A_eq0 (VA m) c 1).trans (V2_of m (outs m) c main_v0 (by decide)).symm)
  | ⟨2, _⟩ =>
    show _ = Function.update (V1 m c) (Proc.devRef .tc main_v1) (outs m 2 main_v1 c) (Proc.devRef .tc main_v1)
    rw [Function.update_self, outs_v1]
    rfl
theorem hrest0 (c : Dev nD) : ∀ b, b ∉ Finset.univ.image (Pipeline.arrRef spec0) → V2 m (outs m) c b = VA m c b := fun b hb =>
  V2_of m (outs m) c b (by
    intro h
    rw [List.mem_singleton] at h
    exact hb (Finset.mem_image.mpr ⟨2, Finset.mem_univ _, h.symm⟩))

variable (hA1 : ∀ c w, (rd1 c).A w = VB m c (Pipeline.arrRef spec1 w))
  (hΦ1 : ∀ c t, (rd1 c).Φ t = Pipeline.ΦA spec1 c)
  (hq1 : ∀ c w, (rd1 c).q w = fullShare) (how1 : ∀ c t, (rd1 c).owed t = 0)
  (hrec1 : ∀ c t, (rd1 c).recorded t = Set.univ)
  (hbody1 : ∀ c, (rd1 c).BodyObligation (defs₀ (F := F)) 𝒱₀ () Set.univ)

/-- The last thread state: the decoder region's arrays at what its data allow, every other unscoped buffer as the
    last host stretch left it, the generator register at some state. -/
abbrev Tₙ (c : Dev nD) : sProp 𝕄 :=
  iprop((rdats m rd1 1 c).arraysAt cfg1.N
    ∗ Pipeline.unscopedRest (Ix := Unit) (Name := ℕ) (U := UR sig nD τ) (Lvl := ℕ) spec1 c (VB m c) ∗ ∃ r, prngReg c r)

set_option backward.isDefEq.respectTransparency.types false in
/-- The projection region as an item: entered from every unscoped buffer at `V1`, left at `V2`. -/
def reg0 : Pipeline.RDat.RegionSeg (pcfgs (F := F)) adm (rdats m rd1) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m) c).toR
  hwaits := Pipeline.RDat.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.RDat.arrays_of_unscopedBufs (p := 0) (pcfgs (F := F)) adm (rdats m rd1) launch0.win launch0.arr_whole c
      ((rdats m rd1 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m rd1 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m rd1 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (dfam m) ((dfam m 0 c).share_full fun _ => rfl)
      (VA m c) (fun b => V2 m (outs m) c b) ((dat0 (VA m) c).arrAt · cfg0.N) (hF0 m c) (hrest0 m c)
    rw [Pipeline.unscopedBufs_held] at hjoin
    have hpost : (rdats m rd1 0 c).arraysAt cfg0.N ⊢ ((dfam m 0 c).arrays ((dat0 (VA m) c).arrAt · cfg0.N) : sProp 𝕄) :=
      (dat0 (VA m) c).toR_arraysAt_post cfg0.N
    iintro ⟨Ha, HO, HY, Hrest⟩
    ihave Ha' := hpost $$ Ha
    imodintro
    isplitl [Ha' Hrest]
    · iapply hjoin; isplitl [Ha'] <;> iassumption
    isplitl [HY]; · iexact HY
    unfold Pipeline.RDat.owesAt Pipeline.owesWithin
    icases HO with ⟨%W, -, HO⟩; iexists W; iexact HO

set_option backward.isDefEq.respectTransparency.types false in
/-- The decoder region as an item: entered from every unscoped buffer at `V9`, left at the last thread state. -/
def reg1 : Pipeline.RDat.RegionSeg (pcfgs (F := F)) adm (rdats m rd1) () defs₀ 𝒱₀ L lv 1 where
  win := launch1.win.to₀
  block_pos := launch1.block_pos
  stage_whole := launch1.stage_whole
  K := PEmpty
  osem k := k.elim
  ho := Pipeline.OwnSemFacts.none _
  hbody c := hbody1 c
  hwaits := Pipeline.RDat.hwaits_of_owed_zero _ _ _ _ L lv 1 fun c t => how1 c t
  pre c := iprop(StableHlo.held (c : Thread nD τ) (Pipeline.ucRefs τ sig) (V9 m (outs m) c) ∗ R c)
  post c := iprop(Tₙ m rd1 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := Pipeline.RDat.arrays_of_unscopedBufs (p := 1) (pcfgs (F := F)) adm (rdats m rd1) launch1.win launch1.arr_whole c
      ((rd1 c).share_full (hq1 c)) (VB m c) (hA1 c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      rw [show (rdats m rd1 1 c).owed 0 = 0 from how1 c 0]
      icases HO with ⟨%W, HO⟩; iexists W; isplitr
      · ipureintro; exact fun _ _ => Or.inl (by rw [show (rdats m rd1 1 c).recorded 0 = Set.univ from hrec1 c 0]; trivial)
      iexact HO
    isplitl [Hp]; · iexact Hp
    iexact Hrest
  hin c := by
    rw [show (rdats m rd1 1 c).Φ 0 = Pipeline.ΦA spec1 c from hΦ1 c 0]; unfold Pipeline.ΦA
    iintro ⟨Hp, -, Hr⟩
    isplitl [Hr]; · iexact Hr
    iexact Hp
  hout c := by
    rw [Pipeline.ownSems0_none, show (rdats m rd1 1 c).Φ (Fin.last _) = Pipeline.ΦA spec1 c from hΦ1 c _]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest HY]
    · isplitl [Ha]; · iexact Ha
      isplitl [Hrest]; · iexact Hrest
      iexact HY
    unfold Pipeline.RDat.owesAt Pipeline.owesWithin
    rw [show (rdats m rd1 1 c).owed (Fin.last _) = 0 from how1 c _]
    icases HO with ⟨%W, -, HO⟩; iexists W; iexact HO

/-- The program's ten items in order. -/
abbrev segs : List (Pipeline.RDat.Seg (pcfgs (F := F)) adm (rdats m rd1) () defs₀ 𝒱₀ L lv) :=
  [ .host (seg0 m 𝒱₀ L lv E), .region (reg0 m rd1),
    .host (seg2 m (outs m) 𝒱₀ L lv E), .host (seg3 m (outs m) 𝒱₀ L lv E), .host (seg4 m (outs m) 𝒱₀ L lv E),
    .host (seg5 m (outs m) 𝒱₀ L lv E), .host (seg6 m (outs m) 𝒱₀ L lv E), .host (seg7 m (outs m) 𝒱₀ L lv E),
    .host (seg8 m (outs m) 𝒱₀ L lv E), .region (reg1 m rd1 hA1 hΦ1 hq1 how1 hrec1 hbody1) ]

/-- What the run leaves, core by core: the decoder region's arrays at contents its data allow, every other unscoped
    buffer at what the last host stretch left. -/
def QY (c : Dev nD) (s : MemSt nD τ sig (Elt F)) : Prop :=
  (∀ w : Fin cfg1.W, (rd1 c).ArrAt w cfg1.N (s.mem ((cfg1.win w).arr.view.loc (c : Thread nD τ))))
  ∧ ∀ b ∈ restRefs, s.mem ((c : Thread nD τ).loc b) = VB m c b

include hA1 hΦ1 hq1 how1 hrec1 hbody1 in
set_option backward.isDefEq.respectTransparency.types false in
/-- THE RUN: every weakly fair execution of the program from memory `m` with zero counters terminates, nothing
    faulting, in a state that satisfies `QY` on every core. -/
theorem run_gen : θ_run defs (onTc (τ := τ) (main (F := F))) ⟨m, fun _ => 0, ρ⟩ (fun r => ∀ c : Dev nD, QY m rd1 c r.2) :=
  Pipeline.RDat.θ_run_regions_kit (pcfgs (F := F)) adm (rdats m rd1) () cellOf_inj emb₁ defs₀ 𝒱₀ L lv m ρ main
    (segs m rd1 hA1 hΦ1 hq1 how1 hrec1 hbody1)
    (fun c Q => by
      rewrite [main_chain c, Pipeline.RDat.Seg.run_eq_chain,
        show (segs m rd1 hA1 hΦ1 hq1 how1 hrec1 hbody1).map Pipeline.RDat.Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          Prog.lift (.customCall (Pipeline.entry 1) ()) ] from rfl]
      exact .rfl)
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m rd1)
    (hch := ⟨fun _ => .rfl, fun _ => .rfl, fun _ => .rfl, fun _ => .rfl, fun _ => .rfl, fun _ => .rfl, fun _ => .rfl,
      fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := QY m rd1)
    (hfin := fun c s' => by
      iintro ⟨⟨Ha, Hrest, -⟩, HSI⟩
      ihave H1 := (Pipeline.RDat.arrays_read (pcfgs (F := F)) adm (rdats m rd1) (p := 1) launch1.arr_whole c cfg1.N s') $$ [Ha HSI]
      · isplitl [Ha] <;> iassumption
      icases H1 with ⟨%h1, HSI⟩
      unfold Pipeline.unscopedRest
      ihave H2 := (pointsTo_read_all restRefs (fun b => (c : Thread nD τ).loc b) (VB m c) s') $$ [Hrest HSI]
      · isplitl [Hrest] <;> iassumption
      icases H2 with ⟨%h2, HSI⟩
      imodintro
      isplitr
      · ipureintro; exact ⟨h1, h2⟩
      iexact HSI)
    (hQ := fun s h c => h c)

end Data

end Cert.KernelIdeal.Run

end
-- ==== Proof.Region1Body.lean ====
/-
  The decoder region: one grid point multiplies a 1024 x 256 block of the hidden activations by a 256 x 2048
  block of the weights and adds the 1 x 2048 block of the bias along the rows. The body on whole staging buffers.
-/
import proofs.«115824_j30597347017287_1_alg».proof.Proof.Gen.KernelIdeal.Launch
import proofs.«115824_j30597347017287_1_alg».proof.Proof.Gen.KernelIdeal.Skeleton
import proofs.«115824_j30597347017287_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

/-- The whole staging blocks: activations, weights, bias, result. -/
abbrev rA : Rect S1024x256 := Rect.unit (s := S1024x256) ![0, 0] S1024x256.size inb_S1024x256_S1024x256_0_0
abbrev rB : Rect S256x2048 := Rect.unit (s := S256x2048) ![0, 0] S256x2048.size inb_S256x2048_S256x2048_0_0
abbrev rC : Rect S1x2048 := Rect.unit (s := S1x2048) ![0, 0] S1x2048.size inb_S1x2048_S1x2048_0_0
abbrev rD : Rect S1024x2048 := Rect.unit (s := S1024x2048) ![0, 0] S1024x2048.size inb_S1024x2048_S1024x2048_0_0

/-- What the body leaves in the result's staging buffer: its one store, product plus bias. -/
def out1_3 (x0 : Vec F S1024x256 .bf16) (x1 : Vec F S256x2048 .bf16) (x2 : Vec F S1x2048 .f32) : Vec F S1024x2048 .f32 :=
  View.canon [⟨rD, k1_pay1 (View.ld x0 rA) (View.ld x1 rB) (View.ld x2 rC)⟩]

theorem cover1_3 (p0 : Vec F S1024x2048 .f32) (y : S1024x2048.Idx) :
    ∃ pc ∈ ([⟨rD, p0⟩] : List (View.Piece (Elt F) S1024x2048 .f32)), y ∈ pc.1.set :=
  View.cover_of_tiled [⟨rD, p0⟩] S1024x2048.size (by rfl) y

/-- The body on whole staging memrefs holding ANY contents `x0 x1 x2` (and anything in the result's): it runs, leaves
    the three inputs as they were and the result's buffer at `out1_3 x0 x1 x2`. -/
theorem sound_kernel1 (c : Dev nD) (E : Set ℕ) (i : grid1.Coords)
    (arg2 : Memref sig .tc .vmem S1024x256 .bf16) (harg2 : arg2.IsWhole)
    (arg3 : Memref sig .tc .vmem S256x2048 .bf16) (harg3 : arg3.IsWhole)
    (arg4 : Memref sig .tc .vmem S1x2048 .f32) (harg4 : arg4.IsWhole)
    (arg5 : Memref sig .tc .vmem S1024x2048 .f32) (harg5 : arg5.IsWhole)
    (x0 : Vec F S1024x256 .bf16) (x1 : Vec F S256x2048 .bf16) (x2 : Vec F S1x2048 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1__dec_kernel i arg2 harg2 arg3 harg3 arg4 harg4 arg5 harg5) K := by
  simp only [cc1__dec_kernel_eq_skeleton]; unfold cc1__dec_kernel_skel
  unfold owns
  -- each input's buffer is a function agreeing with its contents; the result's holds anything
  iintro ⟨⟨%f0, %hf0, H0⟩, ⟨%f1, %hf1, H1⟩, ⟨%f2, %hf2, H2⟩, ⟨%d3, %f3, -, H3⟩, Hk⟩
  subst hf0; subst hf1; subst hf2
  -- three whole loads, the dead load of the result's buffer, the one whole store
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  -- the whole store over any contents reads back as the canonical form of its one piece
  iexists _; isplitr
  swap; · iexact H3
  ipureintro
  exact View.read_writes_eq_canon _ _ _ (cover1_3 _)

-- the TensorCore's buffer contents when the region is entered
variable (V : (c : Dev nD) → (b : Ref sig .tc) → Buf (Elt F) ((c : Thread nD τ).loc b))

/-- Window `w`'s block at grid point `t` — its part inside the array — read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

end Cert.KernelIdeal.R1

end
-- ==== Proof.Region1Free.lean ====
/-
  The decoder region with nothing said of what the body leaves: relational proof data whose relations hold of any
  contents. Enough for a claim that reads none of the region's arrays afterwards (every argument array stays out of
  the region's reach: the region's arrays are host results).
-/
import proofs.«115824_j30597347017287_1_alg».proof.Proof.Region1Body

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The arrays as found; of every window's buffer after the body, nothing. -/
def rdFree (c : Dev nD) : RDat τ (Elt F) Unit ℕ (UR sig nD τ) ℕ cfg1 c where
  A w := V c (Pipeline.arrRef spec1 w)
  after _ _ _ _ := True
  Φ _ := Pipeline.ΦA spec1 c
  q _ := fullShare
  owed _ := 0

theorem rdFree_A (c : Dev nD) (w : Fin cfg1.W) : (rdFree V c).A w = V c (Pipeline.arrRef spec1 w) := rfl

/-- The body runs at every point whatever the four staging buffers hold. -/
theorem body_obligation1_free (c : Dev nD) : (rdFree (F := F) V c).BodyObligation (defs₀ (F := F)) Variants.none () Set.univ := by
  intro t Y _
  -- the four windows' buffers, one by one
  rw [bigSep_W1, bigSep_W1]
  -- the program is the body on the four current staging memrefs
  show _ ⊢ wp frame (wpE (defs₀ (F := F)) Variants.none c none) Set.univ (bodyAt1 t) _
  -- the invariant and what the core owes do not move over a point
  rw [show (rdFree V c).Φ t.succ = (rdFree V c).Φ t.castSucc from rfl,
    show (rdFree V c).owesAt () t.succ = (rdFree V c).owesAt () t.castSucc from rfl]
  iintro ⟨HΦ, Ho, H0, H1, H2, H3⟩
  iapply (sound_kernel1 c Set.univ _ _ _ _ _ _ _ _ _ (Y 0) (Y 1) (Y 2) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  -- each buffer goes back at what it holds; the relation asks nothing
  isplitl [H0]
  · iexists (Y 0); isplitr; · ipureintro; trivial
    iexact H0
  isplitl [H1]
  · iexists (Y 1); isplitr; · ipureintro; trivial
    iexact H1
  isplitl [H2]
  · iexists (Y 2); isplitr; · ipureintro; trivial
    iexact H2
  iexists (out1_3 (Y 0) (Y 1) (Y 2)); isplitr; · ipureintro; trivial
  iexact H3

end Cert.KernelIdeal.R1

end
-- ==== Proof.Frame.lean ====
/-
  The frame: every weakly fair execution of the program terminates, nothing faulting, and every argument array ends
  as launched. No host stretch writes an argument and neither region may change one (the projection reads x through an
  input window; the decoder's arrays are host results), so each argument's buffer, read off the run's last valuation, walks
  back to the launch memory.
-/
import proofs.«115824_j30597347017287_1_alg».proof.Proof.Run
import proofs.«115824_j30597347017287_1_alg».proof.Proof.Region1Free

set_option maxRecDepth 16384

noncomputable section

namespace Cert.KernelIdeal.Frame

open Cert.KernelIdeal Cert.KernelIdeal.Gen Cert.KernelIdeal.Run Cert.KernelIdeal.R1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

variable (m : (ℓ : Loc nD τ sig) → Buf (Elt F) ℓ) (ρ : Dev nD → PrngReg)

/-- The run with the decoder region's data saying nothing of what its body leaves. -/
theorem run_free : θ_run defs (onTc (τ := τ) (main (F := F))) ⟨m, fun _ => 0, ρ⟩
    (fun r => ∀ c : Dev nD, QY m (rdFree (VB m)) c r.2) :=
  run_gen m ρ (rdFree (VB m)) (fun _ _ => rfl) (fun _ _ => rfl) (fun _ _ => rfl) (fun _ _ => rfl) (fun _ _ => rfl)
    (fun c => body_obligation1_free (VB m) c)

theorem VB_main_arg0 (c : Dev nD) : VB m c main_arg0 = m ((c : Thread nD τ).loc main_arg0) :=
  (V10_of m (outs m) c main_arg0 (by decide)).symm.trans (V10_main_arg0 m (outs m) c)
theorem VB_main_arg1 (c : Dev nD) : VB m c main_arg1 = m ((c : Thread nD τ).loc main_arg1) :=
  (V10_of m (outs m) c main_arg1 (by decide)).symm.trans (V10_main_arg1 m (outs m) c)
theorem VB_main_arg2 (c : Dev nD) : VB m c main_arg2 = m ((c : Thread nD τ).loc main_arg2) :=
  (V10_of m (outs m) c main_arg2 (by decide)).symm.trans (V10_main_arg2 m (outs m) c)
theorem VB_main_arg3 (c : Dev nD) : VB m c main_arg3 = m ((c : Thread nD τ).loc main_arg3) :=
  (V10_of m (outs m) c main_arg3 (by decide)).symm.trans (V10_main_arg3 m (outs m) c)
theorem VB_main_arg4 (c : Dev nD) : VB m c main_arg4 = m ((c : Thread nD τ).loc main_arg4) :=
  (V10_of m (outs m) c main_arg4 (by decide)).symm.trans (V10_main_arg4 m (outs m) c)
theorem VB_main_arg5 (c : Dev nD) : VB m c main_arg5 = m ((c : Thread nD τ).loc main_arg5) :=
  (V10_of m (outs m) c main_arg5 (by decide)).symm.trans (V10_main_arg5 m (outs m) c)
theorem VB_main_arg6 (c : Dev nD) : VB m c main_arg6 = m ((c : Thread nD τ).loc main_arg6) :=
  (V10_of m (outs m) c main_arg6 (by decide)).symm.trans (V10_main_arg6 m (outs m) c)
theorem VB_main_arg7 (c : Dev nD) : VB m c main_arg7 = m ((c : Thread nD τ).loc main_arg7) :=
  (V10_of m (outs m) c main_arg7 (by decide)).symm.trans (V10_main_arg7 m (outs m) c)
theorem VB_main_arg8 (c : Dev nD) : VB m c main_arg8 = m ((c : Thread nD τ).loc main_arg8) :=
  (V10_of m (outs m) c main_arg8 (by decide)).symm.trans (V10_main_arg8 m (outs m) c)
theorem VB_main_arg9 (c : Dev nD) : VB m c main_arg9 = m ((c : Thread nD τ).loc main_arg9) :=
  (V10_of m (outs m) c main_arg9 (by decide)).symm.trans (V10_main_arg9 m (outs m) c)

theorem mem_rest (b : Ref sig .tc) (h : b ∈ restRefs := by decide) : b ∈ restRefs := h

/-- The frame claim's statement at any float family. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)) :=
  (θ_run defs _ _).mono (fun r h c =>
    ⟨((h c).2 main_arg0 (by decide)).trans (VB_main_arg0 m c),
     ((h c).2 main_arg1 (by decide)).trans (VB_main_arg1 m c),
     ((h c).2 main_arg2 (by decide)).trans (VB_main_arg2 m c),
     ((h c).2 main_arg3 (by decide)).trans (VB_main_arg3 m c),
     ((h c).2 main_arg4 (by decide)).trans (VB_main_arg4 m c),
     ((h c).2 main_arg5 (by decide)).trans (VB_main_arg5 m c),
     ((h c).2 main_arg6 (by decide)).trans (VB_main_arg6 m c),
     ((h c).2 main_arg7 (by decide)).trans (VB_main_arg7 m c),
     ((h c).2 main_arg8 (by decide)).trans (VB_main_arg8 m c),
     ((h c).2 main_arg9 (by decide)).trans (VB_main_arg9 m c)⟩)
    (run_free m ρ)

end Cert.KernelIdeal.Frame

end
-- ==== Proof.Region1Exact.lean ====
/-
  The decoder region over the extended reals, its result named. The weights', the bias's and the result's last
  column block overhang their arrays (20000 = 9 * 2048 + 1568): a fetch fills the columns inside the array and leaves
  the rest at words nothing names. An entry of product-plus-bias in column j reads only column j of the weights and of
  the bias, so the columns inside the array — all that is written back — do not depend on those words.
-/
import proofs.«115824_j30597347017287_1_alg».proof.Proof.Region1Body
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

local notation "𝕄" => MT nD τ sig Unit (Elt Ideal) ℕ (UR sig nD τ) ℕ

/-! ## The result block read at an index: a row of the activations against ONE column of the weights, plus that
    column's bias -/

section Columns

open Idealize.ShloMosaic.ValueIdx

/-- Entry `y` of the result block is the sum over the contraction index of the activations' row `y 0` against the
    weights' column `y 1`, plus the bias at column `y 1`. -/
theorem out1_3_apply (x0 : Vec Ideal S1024x256 .bf16) (w : Vec Ideal S256x2048 .bf16) (b : Vec Ideal S1x2048 .f32)
    (y : S1024x2048.Idx) :
    out1_3 x0 w b y
      = (∑ k : dot_S1024x256_S256x2048_S1024x2048_1_0_0_1_n_n.contr.Idx,
          x0 (dot_S1024x256_S256x2048_S1024x2048_1_0_0_1_n_n.lhsIdx y k)
            * w (dot_S1024x256_S256x2048_S1024x2048_1_0_0_1_n_n.rhsIdx y k))
        + b (ix2 0 (y 1)) := by
  have hz : (![0, 0] : Fin 2 → Nat) = fun _ => 0 := funext fun a => by fin_cases a <;> rfl
  unfold out1_3
  rw [View.canon_unit_zero hz, View.ld_unit_zero hz, View.ld_unit_zero hz, View.ld_unit_zero hz]
  unfold k1_pay1
  simp only [shapeCast_self]
  rw [addf_apply]
  simp only [matmul]
  rw [Ideal.matmul_constant_zero_apply]
  congr 1
  exact broadcastTo_apply _ _ _ _ (fun a => by fin_cases a <;> rfl)

/-- Column independence: weights that agree on the columns below `n` and biases that agree there give result blocks
    that agree on the columns below `n`. -/
theorem out1_3_congr_cols (x0 : Vec Ideal S1024x256 .bf16) (w w' : Vec Ideal S256x2048 .bf16)
    (b b' : Vec Ideal S1x2048 .f32) (n : Nat)
    (hw : ∀ z : S256x2048.Idx, (z 1).val < n → w z = w' z) (hb : ∀ z : S1x2048.Idx, (z 1).val < n → b z = b' z)
    (y : S1024x2048.Idx) (hy : (y 1).val < n) : out1_3 x0 w b y = out1_3 x0 w' b' y := by
  rw [out1_3_apply, out1_3_apply, hb _ hy]
  congr 1
  refine Finset.sum_congr rfl fun k _ => ?_
  rw [hw _ (show ((dot_S1024x256_S256x2048_S1024x2048_1_0_0_1_n_n.rhsIdx y k) 1).val < n from hy)]

end Columns

/-! ## The cuts: the weights', the bias's and the result's blocks are cut at one column -/

/-- Two fills of one block agree wherever the transfer moves: the filler shows only past the cut. -/
theorem fill_eq_of_moved {G : Pipeline.Grid} (w : Window sig G) {α : Type} (i : G.Coords) (d d' : w.block.Idx → α)
    (g : (w.xblock i).Idx → α) (j : w.block.Idx) (h : w.moved i j = true) : w.fill i d g j = w.fill i d' g j := by
  unfold Window.fill; rw [dif_pos h, dif_pos h]

/-- The weights' block is uncut along the contraction and cut along the columns where the result's is (one index map
    on that axis, one array extent): an entry in a column the result's transfer moves is one the weights' moves. -/
theorem moved1_1 (i : grid1.Coords) (z : S256x2048.Idx) (h : (z 1).val < win1_3.xsize i 1) : win1_1.moved i z = true := by
  refine (win1_1.moved_iff i z).mpr fun a => ?_
  match a with
  | ⟨0, _⟩ => exact (z 0).isLt
  | ⟨1, _⟩ => exact h

/-- The bias's block likewise: its one row uncut, its columns cut where the result's are. -/
theorem moved1_2 (i : grid1.Coords) (z : S1x2048.Idx) (h : (z 1).val < win1_3.xsize i 1) : win1_2.moved i z = true := by
  refine (win1_2.moved_iff i z).mpr fun a => ?_
  match a with
  | ⟨0, _⟩ => exact (z 0).isLt
  | ⟨1, _⟩ => exact h

/-- So the result block's part inside the array does not depend on what fills the weights' and the bias's buffers
    past the cut. -/
theorem cut_out1_3 (i : grid1.Coords) (x0 : Vec Ideal S1024x256 .bf16)
    (g1 : (win1_1.xblock i).Idx → Elt Ideal .bf16) (g2 : (win1_2.xblock i).Idx → Elt Ideal .f32)
    (d1 d1' : S256x2048.Idx → Elt Ideal .bf16) (d2 d2' : S1x2048.Idx → Elt Ideal .f32) :
    win1_3.cut i (out1_3 x0 (win1_1.fill i d1 g1) (win1_2.fill i d2 g2))
      = win1_3.cut i (out1_3 x0 (win1_1.fill i d1' g1) (win1_2.fill i d2' g2)) := by
  funext j
  exact out1_3_congr_cols x0 _ _ _ _ (win1_3.xsize i 1)
    (fun z hz => fill_eq_of_moved win1_1 i d1 d1' g1 z (moved1_1 i z hz))
    (fun z hz => fill_eq_of_moved win1_2 i d2 d2' g2 z (moved1_2 i z hz))
    (win1_3.xinj i j) (j 1).isLt

variable (V : (c : Dev nD) → (b : Ref sig .tc) → Buf (Elt Ideal) ((c : Thread nD τ).loc b))

/-- The weights' block at point `t`, zero past the array's last column; the bias's likewise. -/
def wblk (c : Dev nD) (t : Fin cfg1.N) : Vec Ideal S256x2048 .bf16 :=
  win1_1.fill (grid1.coords t) (fun _ => Scalar.ofBits (F := Ideal) .bf16 0#16) (iblk1 V c 1 t)
def bblk (c : Dev nD) (t : Fin cfg1.N) : Vec Ideal S1x2048 .f32 :=
  win1_2.fill (grid1.coords t) (fun _ => Scalar.ofBits (F := Ideal) .f32 0#32) (iblk1 V c 2 t)

/-- The region's proof data on core `c`. -/
def dat1 (c : Dev nD) : Dat τ (Elt Ideal) Unit ℕ (UR sig nD τ) ℕ cfg1 c where
  A w := V c (Pipeline.arrRef spec1 w)
  after w t := match w with
    | ⟨0, _⟩ => iblk1 V c 0 t
    | ⟨1, _⟩ => wblk V c t
    | ⟨2, _⟩ => bblk V c t
    | ⟨3, _⟩ => out1_3 (iblk1 V c 0 t) (wblk V c t) (bblk V c t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = wblk V c t := by dsimp only [dat1]
theorem after1_2 (c : Dev nD) (t : Fin cfg1.N) : (dat1 V c).after 2 t = bblk V c t := by dsimp only [dat1]
theorem after1_3 (c : Dev nD) (t : Fin cfg1.N) :
    (dat1 V c).after 3 t = out1_3 (iblk1 V c 0 t) (wblk V c t) (bblk V c t) := by dsimp only [dat1]

/-! ## What the body finds in each window's buffer -/

/-- A window's block as the fetch reads it is its part inside the array as the region finds it. -/
theorem blockOf1 (c : Dev nD) (w : Fin cfg1.W) (t : Fin cfg1.N) : (dat1 V c).blockOf w t = iblk1 V c w t := by
  unfold Dat.blockOf iblk1; rw [A_eq1]

/-- The activations' window is uncut and never idle: its buffer holds its block at every point. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0, blockOf1]) t d).trans (by unfold Dat.fetched; rw [blockOf1]; rfl)

/-- The weights' window: equal block indices are cut alike (the cut is a function of the index), and what the body
    leaves, cut back, is the block; so at every point, fetched there or not, the buffer holds the block on the columns
    inside the array and words nothing names past them. -/
theorem before1_1 (c : Dev nD) (t : Fin cfg1.N) (d) :
    (dat1 V c).before 1 t d = win1_1.fill (grid1.coords t) d (iblk1 V c 1 t) := by
  rw [(dat1 V c).before_in_eq_fetched 1 rfl (fun _ => rfl)
    (fun t t' h => funext fun a => by
      show Pipeline.Clip.of (win1_1.index t a) _ _ = Pipeline.Clip.of (win1_1.index t' a) _ _
      rw [show win1_1.index t = win1_1.index t' from h])
    (fun t => by rw [after1_1, blockOf1]; exact win1_1.cut_fill _ _ _) t d]
  unfold Dat.fetched; rw [blockOf1]

/-- The bias's window likewise. -/
theorem before1_2 (c : Dev nD) (t : Fin cfg1.N) (d) :
    (dat1 V c).before 2 t d = win1_2.fill (grid1.coords t) d (iblk1 V c 2 t) := by
  rw [(dat1 V c).before_in_eq_fetched 2 rfl (fun _ => rfl)
    (fun t t' h => funext fun a => by
      show Pipeline.Clip.of (win1_2.index t a) _ _ = Pipeline.Clip.of (win1_2.index t' a) _ _
      rw [show win1_2.index t = win1_2.index t' from h])
    (fun t => by rw [after1_2, blockOf1]; exact win1_2.cut_fill _ _ _) t d]
  unfold Dat.fetched; rw [blockOf1]

/-- The result's window is written back at every point: its buffer is handed over at words nothing names. -/
theorem before1_3 (c : Dev nD) (t : Fin cfg1.N) (d) : (dat1 V c).before 3 t d = d :=
  (dat1 V c).before_out_reset 3 rfl t
    (by by_cases h : t.val = 0
        · exact .inl h
        · exact .inr ⟨h, flush1_3 _⟩) d

/-- The loose body obligation at every point: each cut window's buffer is stated on the columns inside the array. -/
theorem body_obligation1 (c : Dev nD) :
    BodyObligationLoose (dat1 V c) (defs₀ (F := Ideal)) Variants.none () Set.univ := fun t => by
  rw [bigSep_W1, bigSep_W1]
  -- no window is idle at any point; the weights', the bias's and the result's are stated on the part inside the array
  simp only
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩, ⟨%d3, H3⟩⟩
  -- the buffers as the body finds them: the activations' block; the weights' and the bias's blocks filled out past
  -- the cut with `d1`, `d2`; the result's at anything
  rw [before1_0 V c t d0, before1_1 V c t d1, before1_2 V c t d2, before1_3 V c t d3]
  iapply (sound_kernel1 (F := Ideal) c Set.univ (grid1.coords t)
    (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2))
    (win1_3.stage (cfg1.slots t 3)) (hstage1_3 ((cfg1.slots t 3).cast nbuf1_3))
    (iblk1 V c 0 t) (win1_1.fill (grid1.coords t) d1 (iblk1 V c 1 t)) (win1_2.fill (grid1.coords t) d2 (iblk1 V c 2 t)) _)
  isplitl [H0]; · iexact H0
  isplitl [H1]; · iexact H1
  isplitl [H2]; · iexact H2
  isplitl [H3]; · iexists d3; iexact H3
  iintro ⟨H0, H1, H2, H3⟩
  -- the invariant and what is owed pass through unread
  isplitl [HΦ]; · iexact HΦ
  isplitl [Ho]; · iexact Ho
  isplitl [H0]
  · rw [after1_0]; iexact H0
  -- the weights' and the bias's buffers hold what they held: cut back, their blocks
  isplitl [H1]
  · iexists d1
    change _ ⊢ owns (c : Thread nD τ) (st1_1 t) fullShare
      (win1_1.fill (grid1.coords t) d1 (win1_1.cut (grid1.coords t) ((dat1 V c).after 1 t)))
    rw [after1_1]; unfold wblk; rw [win1_1.cut_fill]; try iexact H1
  isplitl [H2]
  · iexists d2
    change _ ⊢ owns (c : Thread nD τ) (st1_2 t) fullShare
      (win1_2.fill (grid1.coords t) d2 (win1_2.cut (grid1.coords t) ((dat1 V c).after 2 t)))
    rw [after1_2]; unfold bblk; rw [win1_2.cut_fill]; try iexact H2
  -- the result's buffer holds product plus bias of the filled-out blocks: on the columns inside the array that is the
  -- product plus bias of the zero-filled blocks, by column independence
  · iexists out1_3 (iblk1 V c 0 t) (win1_1.fill (grid1.coords t) d1 (iblk1 V c 1 t))
      (win1_2.fill (grid1.coords t) d2 (iblk1 V c 2 t))
    change _ ⊢ owns (c : Thread nD τ) (st1_3 t) fullShare
      (win1_3.fill (grid1.coords t)
        (out1_3 (iblk1 V c 0 t) (win1_1.fill (grid1.coords t) d1 (iblk1 V c 1 t))
          (win1_2.fill (grid1.coords t) d2 (iblk1 V c 2 t)))
        (win1_3.cut (grid1.coords t) ((dat1 V c).after 3 t)))
    rw [after1_3]; unfold wblk bblk
    rw [win1_3.fill_congr_cut (grid1.coords t) (cut_out1_3 (grid1.coords t) (iblk1 V c 0 t) (iblk1 V c 1 t) (iblk1 V c 2 t) _ _ _ _)]
    try iexact H3

end Cert.KernelIdeal.R1

end
-- ==== Proof.Spec.lean ====
/-
  The two matrix products of the network, entry by entry over the extended reals: the projection of a node's 20000
  features onto 256 hidden channels, and the decoder's last layer (256 channels back to 20000 features, plus bias).
-/
import Idealize.ShloMosaic.PureOps.Ideal
import Idealize.ShloMosaic.Lib.ValueIdx

noncomputable section

namespace Cert.Spec

open Idealize.ShloMosaic Idealize.ShloMosaic.ValueIdx

abbrev S8192x20000 : Shape := ⟨2, ![8192, 20000]⟩
abbrev S20000x256 : Shape := ⟨2, ![20000, 256]⟩
abbrev S8192x256 : Shape := ⟨2, ![8192, 256]⟩
abbrev S256x20000 : Shape := ⟨2, ![256, 20000]⟩
abbrev S1x20000 : Shape := ⟨2, ![1, 20000]⟩

/-- Row r of x against column j of w: the sum over the 20000 features. -/
def proj (x : S8192x20000.Idx → EReal) (w : S20000x256.Idx → EReal) : S8192x256.Idx → EReal :=
  fun i => ∑ k : Fin 20000, x (ix2 (i 0) k) * w (ix2 k (i 1))

/-- Row r of the hidden activations against column j of the weights, plus the bias at j. -/
def dec (a : S8192x256.Idx → EReal) (w : S256x20000.Idx → EReal) (b : S1x20000.Idx → EReal) : S8192x20000.Idx → EReal :=
  fun i => (∑ k : Fin 256, a (ix2 (i 0) k) * w (ix2 k (i 1))) + b (ix2 (0 : Fin 1) (i 1))

/-- At the ideal instance a float of any format is an extended real. -/
example : Elt Ideal .f32 = EReal := rfl
example : Elt Ideal .bf16 = EReal := rfl

end Cert.Spec

end
-- ==== Proof.Value1.lean ====
/-
  The decoder region's result array over the extended reals: the 10 x 8 blocks, the last column block cut at the
  array's 20000th column, cover the 8192 x 20000 array, and every entry is the sum over the 256 hidden channels plus
  the bias of its column.
-/
import proofs.«115824_j30597347017287_1_alg».proof.Proof.Region1Exact
import proofs.«115824_j30597347017287_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Val1

open Cert.KernelIdeal Cert.KernelIdeal.Gen Cert.KernelIdeal.R1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

open Idealize.ShloMosaic.ValueIdx

variable (V : (c : Dev nD) → (b : Ref sig .tc) → Buf (Elt Ideal) ((c : Thread nD τ).loc b))

/-- The two index-literal zeros. -/
theorem hz : (![0, 0] : Fin 2 → Nat) = fun _ => 0 := funext fun a => by fin_cases a <;> rfl

/-- The product's operand indices, axis by axis: the left operand is read at (row, channel), the right at
    (channel, column). -/
theorem lhs_dec_0 (i : S1024x2048.Idx) (q : dot_S1024x256_S256x2048_S1024x2048_1_0_0_1_n_n.contr.Idx) :
    (dot_S1024x256_S256x2048_S1024x2048_1_0_0_1_n_n.lhsIdx i q 0).val = (i 0).val := by
  unfold DotDims.lhsIdx
  rw [dif_neg (show ¬(0 : Fin S1024x256.rank) ∈ dot_S1024x256_S256x2048_S1024x2048_1_0_0_1_n_n.lhsBatch by decide), dif_pos (show (0 : Fin S1024x256.rank) ∈ dot_S1024x256_S256x2048_S1024x2048_1_0_0_1_n_n.lhsNonContracting by decide)]
  rfl
theorem lhs_dec_1 (i : S1024x2048.Idx) (q : dot_S1024x256_S256x2048_S1024x2048_1_0_0_1_n_n.contr.Idx) :
    (dot_S1024x256_S256x2048_S1024x2048_1_0_0_1_n_n.lhsIdx i q 1).val = (q ⟨0, by decide⟩).val :=
  dot_S1024x256_S256x2048_S1024x2048_1_0_0_1_n_n.lhsIdx_val_of_single rfl i q
theorem rhs_dec_0 (i : S1024x2048.Idx) (q : dot_S1024x256_S256x2048_S1024x2048_1_0_0_1_n_n.contr.Idx) :
    (dot_S1024x256_S256x2048_S1024x2048_1_0_0_1_n_n.rhsIdx i q 0).val = (q ⟨0, by decide⟩).val :=
  dot_S1024x256_S256x2048_S1024x2048_1_0_0_1_n_n.rhsIdx_val_of_single rfl i q
theorem rhs_dec_1 (i : S1024x2048.Idx) (q : dot_S1024x256_S256x2048_S1024x2048_1_0_0_1_n_n.contr.Idx) :
    (dot_S1024x256_S256x2048_S1024x2048_1_0_0_1_n_n.rhsIdx i q 1).val = (i 1).val := by
  unfold DotDims.rhsIdx
  rw [dif_neg (show ¬(1 : Fin S256x2048.rank) ∈ dot_S1024x256_S256x2048_S1024x2048_1_0_0_1_n_n.rhsBatch by decide), dif_pos (show (1 : Fin S256x2048.rank) ∈ dot_S1024x256_S256x2048_S1024x2048_1_0_0_1_n_n.rhsNonContracting by decide)]
  rfl

/-- The block product at an entry: the sum over the 256 hidden channels. -/
theorem matmul_dec_apply (y0 : FVec Ideal S1024x256 .bf16) (y1 : FVec Ideal S256x2048 .bf16) (p : Fin 1024) (q : Fin 2048) :
    matmul dot_S1024x256_S256x2048_S1024x2048_1_0_0_1_n_n none y0 y1 (constant (F := Ideal) S1024x2048 .f32 0x00000000#32) (ix2 p q)
      = ∑ k : Fin 256, y0 (ix2 p k) * y1 (ix2 k q) := by
  simp only [matmul]
  rw [Ideal.matmul_constant_zero_apply, ← Equiv.sum_comp (ValueIdx.contrEquiv1 dot_S1024x256_S256x2048_S1024x2048_1_0_0_1_n_n 256 rfl rfl).symm]
  refine Finset.sum_congr rfl fun k _ => ?_
  have hk := ValueIdx.contrEquiv1_symm_val dot_S1024x256_S256x2048_S1024x2048_1_0_0_1_n_n 256 rfl rfl k
  have el : dot_S1024x256_S256x2048_S1024x2048_1_0_0_1_n_n.lhsIdx (ix2 p q) ((ValueIdx.contrEquiv1 dot_S1024x256_S256x2048_S1024x2048_1_0_0_1_n_n 256 rfl rfl).symm k) = ix2 p k := funext fun a => Fin.ext (by
    match a with
    | ⟨0, _⟩ => exact lhs_dec_0 _ _
    | ⟨1, _⟩ => exact (lhs_dec_1 _ _).trans hk)
  have er : dot_S1024x256_S256x2048_S1024x2048_1_0_0_1_n_n.rhsIdx (ix2 p q) ((ValueIdx.contrEquiv1 dot_S1024x256_S256x2048_S1024x2048_1_0_0_1_n_n 256 rfl rfl).symm k) = ix2 k q := funext fun a => Fin.ext (by
    match a with
    | ⟨0, _⟩ => exact (rhs_dec_0 _ _).trans hk
    | ⟨1, _⟩ => exact rhs_dec_1 _ _)
  rw [el, er]

/-- The body's result at an entry: row p of the activations' block against column q of the weights' block, plus the
    bias's block at q. -/
theorem out1_3_apply (x0 : Vec Ideal S1024x256 .bf16) (x1 : Vec Ideal S256x2048 .bf16) (x2 : Vec Ideal S1x2048 .f32)
    (p : Fin 1024) (q : Fin 2048) :
    out1_3 x0 x1 x2 (ix2 p q) = (∑ k : Fin 256, x0 (ix2 p k) * x1 (ix2 k q)) + x2 (ix2 (0 : Fin 1) q) := by
  unfold out1_3
  rw [View.canon_unit_zero hz]
  simp only [View.ld_unit_zero (S := S1024x256) hz, View.ld_unit_zero (S := S256x2048) hz, View.ld_unit_zero (S := S1x2048) hz]
  unfold k1_pay1
  simp only [shapeCast_self]
  rw [addf_apply, matmul_dec_apply, broadcastTo_1b_ab_apply]

/-- The printed index maps over the 80 points: activations move with the result's row tile, weights and bias with its
    column tile; the three cut windows cut alike, and only the last column tile is cut. -/
theorem idx_facts : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = win1_3.index t (1 : Fin 2)
    ∧ win1_2.index t (0 : Fin 2) = 0 ∧ win1_2.index t (1 : Fin 2) = win1_3.index t (1 : Fin 2)
    ∧ win1_1.xsize (grid1.coords t) (0 : Fin 2) = 256 ∧ win1_1.xsize (grid1.coords t) (1 : Fin 2) = win1_3.xsize (grid1.coords t) (1 : Fin 2)
    ∧ win1_2.xsize (grid1.coords t) (0 : Fin 2) = 1 ∧ win1_2.xsize (grid1.coords t) (1 : Fin 2) = win1_3.xsize (grid1.coords t) (1 : Fin 2)
    ∧ win1_3.xsize (grid1.coords t) (0 : Fin 2) = 1024
    ∧ win1_3.index t (0 : Fin 2) ≤ 7 ∧ win1_3.index t (1 : Fin 2) ≤ 9
    ∧ win1_3.index t (1 : Fin 2) * 2048 + win1_3.xsize (grid1.coords t) (1 : Fin 2) = min 20000 (win1_3.index t (1 : Fin 2) * 2048 + 2048) :=
  (by decide +kernel : ∀ t : Fin grid1.N, _)

/-- Every (row tile, column tile) is some point's. -/
theorem idx_onto : ∀ (q0 : Fin 8) (q1 : Fin 10), ∃ t : Fin cfg1.N, win1_3.index t = ![q0.val, q1.val] :=
  (by decide +kernel : ∀ (q0 : Fin 8) (q1 : Fin 10), ∃ t : Fin grid1.N, win1_3.index t = ![q0.val, q1.val])

/-- The activations' block at (p, k) is the array at (row tile * 1024 + p, k). -/
theorem ablk_apply (c : Dev nD) (t : Fin cfg1.N) (p : Fin 1024) (k : Fin 256) (R : Fin 8192)
    (hR : R.val = win1_3.index t (0 : Fin 2) * 1024 + p.val) :
    iblk1 V c 0 t (ix2 p k) = V c main_v58 (ix2 R k) := by
  obtain ⟨e0, e1, -⟩ := idx_facts t
  show V c main_v58 (((cfg1.win 0).blk t).view.emb (ix2 p k)) = _
  refine congrArg (V c main_v58) (funext fun a => Fin.ext ?_)
  match a with
  | ⟨0, _⟩ => show win1_0.index t (0 : Fin 2) * 1024 + 1 * p.val = R.val; omega
  | ⟨1, _⟩ => show win1_0.index t (1 : Fin 2) * 256 + 1 * k.val = k.val; omega

/-- The weights' block at (k, q), q a column inside the array, is the array at (k, column tile * 2048 + q). -/
theorem wblk_apply (c : Dev nD) (t : Fin cfg1.N) (k : Fin 256) (q : Fin 2048) (C : Fin 20000)
    (hq : q.val < win1_3.xsize (grid1.coords t) (1 : Fin 2))
    (hC : C.val = win1_3.index t (1 : Fin 2) * 2048 + q.val) :
    wblk V c t (ix2 k q) = V c main_v59 (ix2 k C) := by
  obtain ⟨-, -, e2, e3, -, -, s10, s11, -⟩ := idx_facts t
  have hm : win1_1.moved (grid1.coords t) (ix2 k q) = true := (win1_1.moved_iff _ _).mpr fun a => by
    match a with
    | ⟨0, _⟩ => show k.val < win1_1.xsize (grid1.coords t) (0 : Fin 2); rw [s10]; exact k.isLt
    | ⟨1, _⟩ => show q.val < win1_1.xsize (grid1.coords t) (1 : Fin 2); rw [s11]; exact hq
  unfold wblk Window.fill
  rw [dif_pos hm]
  show V c main_v59 (((cfg1.win 1).blk t).view.emb _) = _
  refine congrArg (V c main_v59) (funext fun a => Fin.ext ?_)
  match a with
  | ⟨0, _⟩ => show win1_1.index t (0 : Fin 2) * 256 + 1 * k.val = k.val; omega
  | ⟨1, _⟩ => show win1_1.index t (1 : Fin 2) * 2048 + 1 * q.val = C.val; omega

/-- The bias's block at (0, q), q a column inside the array, is the array at (0, column tile * 2048 + q). -/
theorem bblk_apply (c : Dev nD) (t : Fin cfg1.N) (q : Fin 2048) (C : Fin 20000)
    (hq : q.val < win1_3.xsize (grid1.coords t) (1 : Fin 2))
    (hC : C.val = win1_3.index t (1 : Fin 2) * 2048 + q.val) :
    bblk V c t (ix2 (0 : Fin 1) q) = V c main_v60 (ix2 (0 : Fin 1) C) := by
  obtain ⟨-, -, -, -, e4, e5, -, -, s20, s21, -⟩ := idx_facts t
  have hm : win1_2.moved (grid1.coords t) (ix2 (0 : Fin 1) q) = true := (win1_2.moved_iff _ _).mpr fun a => by
    match a with
    | ⟨0, _⟩ => show 0 < win1_2.xsize (grid1.coords t) (0 : Fin 2); rw [s20]; exact Nat.one_pos
    | ⟨1, _⟩ => show q.val < win1_2.xsize (grid1.coords t) (1 : Fin 2); rw [s21]; exact hq
  unfold bblk Window.fill
  rw [dif_pos hm]
  show V c main_v60 (((cfg1.win 2).blk t).view.emb _) = _
  refine congrArg (V c main_v60) (funext fun a => Fin.ext ?_)
  match a with
  | ⟨0, _⟩ => show win1_2.index t (0 : Fin 2) * 1 + 1 * 0 = 0; omega
  | ⟨1, _⟩ => show win1_2.index t (1 : Fin 2) * 2048 + 1 * q.val = C.val; omega

/-- The decoder's last layer at an entry given by its coordinates. -/
theorem dec_apply (a : Cert.Spec.S8192x256.Idx → EReal) (w : Cert.Spec.S256x20000.Idx → EReal) (b : Cert.Spec.S1x20000.Idx → EReal)
    (R : Fin 8192) (C : Fin 20000) :
    Cert.Spec.dec a w b (ix2 R C) = (∑ k : Fin 256, a (ix2 R k) * w (ix2 k C)) + b (ix2 (0 : Fin 1) C) := rfl

/-- What point t writes back is block t, cut at the array's last column, of the decoder's last layer. -/
theorem flushed_eq (c : Dev nD) (t : Fin cfg1.N) :
    (dat1 V c).flushed 3 t = ((cfg1.win 3).blk t).view.read (Elt Ideal) (Cert.Spec.dec (V c main_v58) (V c main_v59) (V c main_v60)) := by
  show (cfg1.win 3).cut (grid1.coords t) ((dat1 V c).after 3 t) = _
  rw [after1_3]
  obtain ⟨-, -, -, -, -, -, -, -, -, -, s30, b0, b1, hx⟩ := idx_facts t
  funext j
  have hj0 : (j 0).val < win1_3.xsize (grid1.coords t) (0 : Fin 2) := (j 0).isLt
  have hj1 : (j 1).val < win1_3.xsize (grid1.coords t) (1 : Fin 2) := (j 1).isLt
  -- the entry's place in the block and in the array
  have hp : (j 0).val < 1024 := by omega
  have hq : (j 1).val < 2048 := by omega
  have hR : win1_3.index t (0 : Fin 2) * 1024 + (j 0).val < 8192 := by omega
  have hC : win1_3.index t (1 : Fin 2) * 2048 + (j 1).val < 20000 := by omega
  have hin : (cfg1.win 3).xinj (grid1.coords t) j = ix2 (⟨(j 0).val, hp⟩ : Fin 1024) (⟨(j 1).val, hq⟩ : Fin 2048) := funext fun a => by
    match a with
    | ⟨0, _⟩ => rfl
    | ⟨1, _⟩ => rfl
  have hemb : ((cfg1.win 3).blk t).view.emb j
      = ix2 (⟨win1_3.index t (0 : Fin 2) * 1024 + (j 0).val, hR⟩ : Fin 8192) (⟨win1_3.index t (1 : Fin 2) * 2048 + (j 1).val, hC⟩ : Fin 20000) := funext fun a => Fin.ext (by
    match a with
    | ⟨0, _⟩ => show win1_3.index t (0 : Fin 2) * 1024 + 1 * (j 0).val = win1_3.index t (0 : Fin 2) * 1024 + (j 0).val; omega
    | ⟨1, _⟩ => show win1_3.index t (1 : Fin 2) * 2048 + 1 * (j 1).val = win1_3.index t (1 : Fin 2) * 2048 + (j 1).val; omega)
  show out1_3 (iblk1 V c 0 t) (wblk V c t) (bblk V c t) ((cfg1.win 3).xinj (grid1.coords t) j)
    = Cert.Spec.dec (V c main_v58) (V c main_v59) (V c main_v60) (((cfg1.win 3).blk t).view.emb j)
  rw [hin, hemb, out1_3_apply, dec_apply]
  rw [bblk_apply V c t ⟨(j 1).val, hq⟩ ⟨win1_3.index t (1 : Fin 2) * 2048 + (j 1).val, hC⟩ hj1 rfl]
  refine congrArg (· + _) (Finset.sum_congr rfl fun k _ => ?_)
  rw [ablk_apply V c t ⟨(j 0).val, hp⟩ k ⟨win1_3.index t (0 : Fin 2) * 1024 + (j 0).val, hR⟩ rfl,
    wblk_apply V c t k ⟨(j 1).val, hq⟩ ⟨win1_3.index t (1 : Fin 2) * 2048 + (j 1).val, hC⟩ hj1 rfl]

/-- An entry of the array is in point t's block iff each coordinate is in the block's range on its axis, the range
    cut at the array's end. -/
theorem mem_blk (t : Fin cfg1.N) (i : S8192x20000.Idx) :
    i ∈ ((cfg1.win 3).blk t).view.set ↔ ∀ a : Fin 2, win1_3.index t a * S1024x2048.size a ≤ (i a).val
      ∧ (i a).val < win1_3.index t a * S1024x2048.size a + win1_3.xsize (grid1.coords t) a := by
  show i ∈ ((View.whole main_v61).slice (win1_3.rect t)).set ↔ _
  rw [View.set_slice_whole, Rect.mem_set_unit]
  exact Iff.rfl

/-- Entry (r, j) is in the block of the point with row tile r / 1024 and column tile j / 2048. -/
theorem cover (i : S8192x20000.Idx) :
    ∃ t : Fin cfg1.N, (cfg1.win 3).flush t = true ∧ i ∈ ((cfg1.win 3).blk t).view.set := by
  have hi0 : (i 0).val < 8192 := (i 0).isLt
  have hi1 : (i 1).val < 20000 := (i 1).isLt
  obtain ⟨t, ht⟩ := idx_onto ⟨(i 0).val / 1024, by omega⟩ ⟨(i 1).val / 2048, by omega⟩
  have q0 : win1_3.index t (0 : Fin 2) = (i 0).val / 1024 := congrFun ht 0
  have q1 : win1_3.index t (1 : Fin 2) = (i 1).val / 2048 := congrFun ht 1
  obtain ⟨-, -, -, -, -, -, -, -, -, -, s30, b0, b1, hx⟩ := idx_facts t
  refine ⟨t, flush1_3 t, ?_⟩
  rw [mem_blk]
  intro a
  match a with
  | ⟨0, _⟩ =>
    show win1_3.index t (0 : Fin 2) * 1024 ≤ (i 0).val ∧ (i 0).val < win1_3.index t (0 : Fin 2) * 1024 + win1_3.xsize (grid1.coords t) (0 : Fin 2)
    omega
  | ⟨1, _⟩ =>
    show win1_3.index t (1 : Fin 2) * 2048 ≤ (i 1).val ∧ (i 1).val < win1_3.index t (1 : Fin 2) * 2048 + win1_3.xsize (grid1.coords t) (1 : Fin 2)
    omega

/-- After the region the result array holds the decoder's last layer of the region's three input arrays. -/
theorem final1 (c : Dev nD) :
    (dat1 V c).arrAt 3 cfg1.N = Cert.Spec.dec (V c main_v58) (V c main_v59) (V c main_v60) :=
  (dat1 V c).arrAt_eq_of_cover 3 (Cert.Spec.dec (V c main_v58) (V c main_v59) (V c main_v60))
    (fun t _ => flushed_eq V c t) cover

end Cert.KernelIdeal.Val1

end
-- ==== Proof.Vals.lean ====
/-
  The program's run over the extended reals with both regions' data exact: the reconstruction array ends holding the
  decoder's last layer of what the last host stretch hands the decoder region, the latent array what the encoder's host
  stretch left, every argument array its launch contents.
-/
import proofs.«115824_j30597347017287_1_alg».proof.Proof.Frame
import proofs.«115824_j30597347017287_1_alg».proof.Proof.Region1Exact
import proofs.«115824_j30597347017287_1_alg».proof.Proof.Value1

set_option maxRecDepth 16384

noncomputable section

namespace Cert.KernelIdeal.Vals

open Cert.KernelIdeal Cert.KernelIdeal.Gen Cert.KernelIdeal.Run Cert.KernelIdeal.R1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable (m : (ℓ : Loc nD τ sig) → Buf (Elt Ideal) ℓ) (ρ : Dev nD → PrngReg)

/-- The run with the decoder region's exact data read relationally. -/
theorem run_exact : θ_run defs (onTc (τ := τ) (main (F := Ideal))) ⟨m, fun _ => 0, ρ⟩
    (fun r => ∀ c : Dev nD, QY m (fun c => (dat1 (VB m) c).toR) c r.2) :=
  run_gen m ρ (fun c => (dat1 (VB m) c).toR) (fun c w => A_eq1 (VB m) c w) (fun _ _ => rfl) (fun _ _ => rfl) (fun _ _ => rfl)
    (fun _ _ => rfl) (fun c => (body_obligation1 (VB m) c).toR)

/-- Both results by name, and the arguments unchanged. -/
theorem run_values : θ_run defs (onTc (τ := τ) (main (F := Ideal))) ⟨m, fun _ => 0, ρ⟩ (fun r => ∀ c : Dev nD,
      r.2.mem ((c.tc : Thread nD τ).loc main_v61) = Cert.Spec.dec (VB m c main_v58) (VB m c main_v59) (VB m c main_v60)
      ∧ r.2.mem ((c.tc : Thread nD τ).loc main_v52) = VB m c main_v52
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨((dat1 (VB m) c).toR_arrAt 3 cfg1.N _ ((h c).1 3)).trans (Cert.KernelIdeal.Val1.final1 (VB m) c),
     (h c).2 main_v52 (by decide),
     ((h c).2 main_arg0 (by decide)).trans (Cert.KernelIdeal.Frame.VB_main_arg0 m c),
     ((h c).2 main_arg1 (by decide)).trans (Cert.KernelIdeal.Frame.VB_main_arg1 m c),
     ((h c).2 main_arg2 (by decide)).trans (Cert.KernelIdeal.Frame.VB_main_arg2 m c),
     ((h c).2 main_arg3 (by decide)).trans (Cert.KernelIdeal.Frame.VB_main_arg3 m c),
     ((h c).2 main_arg4 (by decide)).trans (Cert.KernelIdeal.Frame.VB_main_arg4 m c),
     ((h c).2 main_arg5 (by decide)).trans (Cert.KernelIdeal.Frame.VB_main_arg5 m c),
     ((h c).2 main_arg6 (by decide)).trans (Cert.KernelIdeal.Frame.VB_main_arg6 m c),
     ((h c).2 main_arg7 (by decide)).trans (Cert.KernelIdeal.Frame.VB_main_arg7 m c),
     ((h c).2 main_arg8 (by decide)).trans (Cert.KernelIdeal.Frame.VB_main_arg8 m c),
     ((h c).2 main_arg9 (by decide)).trans (Cert.KernelIdeal.Frame.VB_main_arg9 m c)⟩)
    (run_exact m ρ)

end Cert.KernelIdeal.Vals

end
-- ==== Proof.Value0.lean ====
/-
  The projection region's result array over the extended reals: the 64 row blocks, each the product of a 128-row
  block of x with the whole weight matrix, tile the 8192 x 256 array, and every entry is the sum over the 20000 features
  (rounding to bf16 is the identity on the extended reals; the accumulator starts at zero).
-/
import proofs.«115824_j30597347017287_1_alg».proof.Proof.Region0
import proofs.«115824_j30597347017287_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Val0

open Cert.KernelIdeal Cert.KernelIdeal.Gen Cert.KernelIdeal.R0
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable (V : (c : Dev nD) → (b : Ref sig .tc) → Buf (Elt Ideal) ((c : Thread nD τ).loc b))

/-- The two-axis zero offset, however it is spelt. -/
theorem hz : (![0, 0] : Fin 2 → Nat) = fun _ => 0 := funext fun a => by fin_cases a <;> rfl

/-! ## The product of two blocks at an entry

  The contraction pairs axis 1 of the left block with axis 0 of the right one; the left block's row and the
  right block's column are the entry's. -/

theorem lhs_pay_0 (i : S128x256.Idx) (q : dot_S128x20000_S20000x256_S128x256_1_0_0_1_n_n.contr.Idx) :
    (dot_S128x20000_S20000x256_S128x256_1_0_0_1_n_n.lhsIdx i q 0).val = (i 0).val := by
  unfold DotDims.lhsIdx
  rw [dif_neg (show ¬(0 : Fin S128x20000.rank) ∈ dot_S128x20000_S20000x256_S128x256_1_0_0_1_n_n.lhsBatch by decide), dif_pos (show (0 : Fin S128x20000.rank) ∈ dot_S128x20000_S20000x256_S128x256_1_0_0_1_n_n.lhsNonContracting by decide)]
  rfl
theorem lhs_pay_1 (i : S128x256.Idx) (q : dot_S128x20000_S20000x256_S128x256_1_0_0_1_n_n.contr.Idx) :
    (dot_S128x20000_S20000x256_S128x256_1_0_0_1_n_n.lhsIdx i q 1).val = (q ⟨0, by decide⟩).val :=
  dot_S128x20000_S20000x256_S128x256_1_0_0_1_n_n.lhsIdx_val_of_single rfl i q
theorem rhs_pay_0 (i : S128x256.Idx) (q : dot_S128x20000_S20000x256_S128x256_1_0_0_1_n_n.contr.Idx) :
    (dot_S128x20000_S20000x256_S128x256_1_0_0_1_n_n.rhsIdx i q 0).val = (q ⟨0, by decide⟩).val :=
  dot_S128x20000_S20000x256_S128x256_1_0_0_1_n_n.rhsIdx_val_of_single rfl i q
theorem rhs_pay_1 (i : S128x256.Idx) (q : dot_S128x20000_S20000x256_S128x256_1_0_0_1_n_n.contr.Idx) :
    (dot_S128x20000_S20000x256_S128x256_1_0_0_1_n_n.rhsIdx i q 1).val = (i 1).val := by
  unfold DotDims.rhsIdx
  rw [dif_neg (show ¬(1 : Fin S20000x256.rank) ∈ dot_S128x20000_S20000x256_S128x256_1_0_0_1_n_n.rhsBatch by decide), dif_pos (show (1 : Fin S20000x256.rank) ∈ dot_S128x20000_S20000x256_S128x256_1_0_0_1_n_n.rhsNonContracting by decide)]
  rfl

/-- Entry (p, q) of what the body stores: row p of the x block against column q of the weights, summed over the
    20000 features. Rounding the x block to bf16 is the identity on the extended reals, the cast to the same shape
    is the identity, and the accumulator is zero. -/
theorem pay_apply (x0 : Vec Ideal S128x20000 .f32) (x1 : Vec Ideal S20000x256 .bf16) (p : Fin 128) (q : Fin 256) :
    out0_2 x0 x1 (ValueIdx.ix2 p q) = ∑ k : Fin 20000, x0 (ValueIdx.ix2 p k) * x1 (ValueIdx.ix2 k q) := by
  unfold out0_2
  rw [View.canon_unit_zero hz]
  simp only [View.ld_unit_zero (S := S128x20000) hz, View.ld_unit_zero (S := S20000x256) hz]
  unfold k0_pay1
  rw [shapeCast_self]
  simp only [matmul]
  rw [Ideal.matmul_constant_zero_apply, ← Equiv.sum_comp (ValueIdx.contrEquiv1 dot_S128x20000_S20000x256_S128x256_1_0_0_1_n_n 20000 rfl rfl).symm]
  refine Finset.sum_congr rfl fun k _ => ?_
  have hk := ValueIdx.contrEquiv1_symm_val dot_S128x20000_S20000x256_S128x256_1_0_0_1_n_n 20000 rfl rfl k
  have el : dot_S128x20000_S20000x256_S128x256_1_0_0_1_n_n.lhsIdx (ValueIdx.ix2 p q) ((ValueIdx.contrEquiv1 dot_S128x20000_S20000x256_S128x256_1_0_0_1_n_n 20000 rfl rfl).symm k) = ValueIdx.ix2 p k := funext fun a => Fin.ext (by
    match a with
    | ⟨0, _⟩ => exact lhs_pay_0 _ _
    | ⟨1, _⟩ => exact (lhs_pay_1 _ _).trans hk)
  have er : dot_S128x20000_S20000x256_S128x256_1_0_0_1_n_n.rhsIdx (ValueIdx.ix2 p q) ((ValueIdx.contrEquiv1 dot_S128x20000_S20000x256_S128x256_1_0_0_1_n_n 20000 rfl rfl).symm k) = ValueIdx.ix2 k q := funext fun a => Fin.ext (by
    match a with
    | ⟨0, _⟩ => exact (rhs_pay_0 _ _).trans hk
    | ⟨1, _⟩ => exact rhs_pay_1 _ _)
  rw [el, er]
  rfl

/-- The same at any index of the result block, by its two coordinates. -/
theorem pay_apply_idx (x0 : Vec Ideal S128x20000 .f32) (x1 : Vec Ideal S20000x256 .bf16) (j : S128x256.Idx) :
    out0_2 x0 x1 j = ∑ k : Fin 20000, x0 (ValueIdx.ix2 (j 0) k) * x1 (ValueIdx.ix2 k (j 1)) := by
  conv_lhs => rw [ValueIdx.eq_ix2 j]
  exact pay_apply x0 x1 (j 0) (j 1)

/-- A block product whose factors are read off two arrays at the entry's row and column is the arrays' projection
    at that entry. -/
theorem proj_of_blocks (X : S8192x20000.Idx → EReal) (W : S20000x256.Idx → EReal)
    (x0 : S128x20000.Idx → EReal) (x1 : S20000x256.Idx → EReal) (i : S8192x256.Idx) (j : S128x256.Idx)
    (hx0 : ∀ k : Fin 20000, x0 (ValueIdx.ix2 (j 0) k) = X (ValueIdx.ix2 (i 0) k))
    (hx1 : ∀ k : Fin 20000, x1 (ValueIdx.ix2 k (j 1)) = W (ValueIdx.ix2 k (i 1))) :
    ∑ k : Fin 20000, x0 (ValueIdx.ix2 (j 0) k) * x1 (ValueIdx.ix2 k (j 1)) = Cert.Spec.proj X W i := by
  unfold Cert.Spec.proj
  exact Finset.sum_congr rfl fun k _ => by rw [hx0 k, hx1 k]

/-! ## What a point writes back

  At point t the x window is at block (t, 0), the weights' at (0, 0) and the result's at (t, 0): the result block's
  row p is row 128 t + p of the array, its column q is column q. -/

/-- The index maps over the 64 points. -/
theorem idx_facts : ∀ t : Fin cfg0.N, win0_0.index t (0 : Fin 2) = win0_2.index t (0 : Fin 2) + 0
    ∧ win0_0.index t (1 : Fin 2) = 0
    ∧ win0_1.index t (0 : Fin 2) = 0
    ∧ win0_1.index t (1 : Fin 2) = win0_2.index t (1 : Fin 2) + 0
    ∧ 0 ≤ win0_2.index t (0 : Fin 2) ∧ win0_2.index t (0 : Fin 2) ≤ 63
    ∧ 0 ≤ win0_2.index t (1 : Fin 2) ∧ win0_2.index t (1 : Fin 2) ≤ 0 :=
  (by decide +kernel : ∀ t : Fin grid0.N, _)

/-- Every row block is some point's. -/
theorem idx_onto : ∀ (q0 : Fin 64) (q1 : Fin 1), ∃ t : Fin cfg0.N, win0_2.index t = ![q0.val + 0, q1.val + 0] :=
  (by decide +kernel : ∀ (q0 : Fin 64) (q1 : Fin 1), ∃ t : Fin grid0.N, win0_2.index t = ![q0.val + 0, q1.val + 0])

set_option maxRecDepth 131072 in
/-- What point t writes back is block t of the projection of the arrays as the region finds them. -/
theorem flushed_eq (c : Dev nD) (t : Fin cfg0.N) :
    (dat0 (F := Ideal) V c).flushed 2 t
      = ((cfg0.win 2).blk t).view.read (Elt Ideal) (Cert.Spec.proj (V c main_arg0) (V c main_v0)) := by
  show (cfg0.win 2).cut (grid0.coords t) ((dat0 (F := Ideal) V c).after 2 t) = _
  rw [after0_2]
  obtain ⟨e0, e1, e2, e3, e4, e5, e6, e7⟩ := idx_facts t
  funext j
  refine (pay_apply_idx _ _ j).trans ?_
  have hj0 : (j 0).val < 128 := (j 0).isLt
  have hj1 : (j 1).val < 256 := (j 1).isLt
  show _ = Cert.Spec.proj (V c main_arg0) (V c main_v0) (((cfg0.win 2).blk t).view.emb j)
  refine proj_of_blocks (V c main_arg0) (V c main_v0) (iblk0 V c 0 t) (iblk0 V c 1 t) (((cfg0.win 2).blk t).view.emb j) j (fun k => ?_) (fun k => ?_)
  · show V c main_arg0 (((cfg0.win 0).blk t).view.emb (ValueIdx.ix2 (j 0) k)) = _
    refine congrArg (V c main_arg0) ?_
    funext a; apply Fin.ext
    match a with
    | ⟨0, _⟩ => show win0_0.index t (0 : Fin 2) * 128 + 1 * (j 0).val = win0_2.index t (0 : Fin 2) * 128 + 1 * (j 0).val; omega
    | ⟨1, _⟩ => show win0_0.index t (1 : Fin 2) * 20000 + 1 * k.val = k.val; omega
  · show V c main_v0 (((cfg0.win 1).blk t).view.emb (ValueIdx.ix2 k (j 1))) = _
    refine congrArg (V c main_v0) ?_
    funext a; apply Fin.ext
    match a with
    | ⟨0, _⟩ => show win0_1.index t (0 : Fin 2) * 20000 + 1 * k.val = k.val; omega
    | ⟨1, _⟩ => show win0_1.index t (1 : Fin 2) * 256 + 1 * (j 1).val = win0_2.index t (1 : Fin 2) * 256 + 1 * (j 1).val; omega

/-! ## The 64 row blocks tile the array -/

/-- An index of the result array is in point t's block iff each coordinate is in the block's range on its axis. -/
theorem mem_blk (t : Fin cfg0.N) (i : S8192x256.Idx) :
    i ∈ ((cfg0.win 2).blk t).view.set ↔ ∀ a : Fin 2, win0_2.index t a * S128x256.size a ≤ (i a).val ∧ (i a).val < win0_2.index t a * S128x256.size a + S128x256.size a := by
  show i ∈ ((View.whole main_v1).slice (win0_2.rect t)).set ↔ _
  rw [View.set_slice_whole, Rect.mem_set_unit]
  exact Iff.rfl

/-- Row r of the array is in the block of the point whose row block is r / 128. -/
theorem cover (i : S8192x256.Idx) :
    ∃ t : Fin cfg0.N, (cfg0.win 2).flush t = true ∧ i ∈ ((cfg0.win 2).blk t).view.set := by
  have hi0 : (i 0).val < 8192 := (i 0).isLt
  have hi1 : (i 1).val < 256 := (i 1).isLt
  obtain ⟨t, ht⟩ := idx_onto ⟨(i 0).val / 128 - 0, by omega⟩ ⟨(i 1).val / 256 - 0, by omega⟩
  have q0 : win0_2.index t (0 : Fin 2) = (i 0).val / 128 - 0 + 0 := congrFun ht 0
  have q1 : win0_2.index t (1 : Fin 2) = (i 1).val / 256 - 0 + 0 := congrFun ht 1
  refine ⟨t, flush0_2 t, ?_⟩
  rw [mem_blk]
  intro a
  match a with
  | ⟨0, _⟩ => show win0_2.index t (0 : Fin 2) * 128 ≤ (i 0).val ∧ (i 0).val < win0_2.index t (0 : Fin 2) * 128 + 128; omega
  | ⟨1, _⟩ => show win0_2.index t (1 : Fin 2) * 256 ≤ (i 1).val ∧ (i 1).val < win0_2.index t (1 : Fin 2) * 256 + 256; omega

/-- After the region the result array holds the projection of x by the weights, entry by entry. -/
theorem final0 (c : Dev nD) :
    (dat0 (F := Ideal) V c).arrAt 2 cfg0.N = Cert.Spec.proj (V c main_arg0) (V c main_v0) := by
  exact (dat0 (F := Ideal) V c).arrAt_eq_of_cover 2 (Cert.Spec.proj (V c main_arg0) (V c main_v0))
    (fun t _ => flushed_eq V c t) cover

end Cert.KernelIdeal.Val0

end
-- ==== Proof.Chain.lean ====
/-
  The host operations between the two regions are the reference's own, applied to the projection's result: the graph
  normalisation (degrees by a scatter-add of ones over the target nodes with self loops, their inverse square roots, the
  edge weights), the gather of the projected rows, their weighted scatter-add, bias and relu, the encoder layer, and the
  decoder's first layer with its relu. Given that the projection's result array holds what the reference's first
  operation computes, the latent array and the decoder's hidden activations hold what the reference's corresponding
  operations compute, as functions of the arguments.
-/
import proofs.«115824_j30597347017287_1_alg».proof.Proof.Gen.KernelIdeal.Regions
import proofs.«115824_j30597347017287_1_alg».proof.Proof.RefRead
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

variable (m : (ℓ : Loc nD τ sig) → Buf (Elt F) ℓ) (o : Outs (F := F))

open Cert.ReferenceIdeal.ReadP

/-! ## Each host stretch on ANY contents `W` of the buffers

If the buffers a stretch reads hold the reference's values, the buffer it hands on holds the reference's next value:
the stretch's operations are the reference's, operation for operation, with every buffer number shifted by one. -/

section Stretches

variable (W : Valuation τ sig (Elt F))
variable (x0 : (⟨S8192x20000, .f32⟩ : BufTy).Contents (Elt F)) (x1 : (⟨S2x262144, .i32⟩ : BufTy).Contents (Elt F))
  (x2 : (⟨S20000x256, .f32⟩ : BufTy).Contents (Elt F)) (x3 : (⟨S256, .f32⟩ : BufTy).Contents (Elt F))
  (x4 : (⟨S256x64, .f32⟩ : BufTy).Contents (Elt F)) (x5 : (⟨S64, .f32⟩ : BufTy).Contents (Elt F))
  (x6 : (⟨S64x256, .f32⟩ : BufTy).Contents (Elt F)) (x7 : (⟨S256, .f32⟩ : BufTy).Contents (Elt F))

/-- The source nodes with the self loops appended. -/
theorem norm_v5 (h1 : W (Proc.devRef .tc main_arg1) = x1) :
    StableHlo.after hostOps1 W (Proc.devRef .tc main_v5) = val_main_v4 (F := F) x1 := by
  after_results
  rw [h1]
  rfl

/-- The target nodes with the self loops appended. -/
theorem norm_v8 (h1 : W (Proc.devRef .tc main_arg1) = x1) :
    StableHlo.after hostOps1 W (Proc.devRef .tc main_v8) = val_main_v7 (F := F) x1 := by
  after_results
  rw [h1]
  rfl

/-- Which nodes have a positive degree (the degrees: the scatter-add of ones over the target nodes). -/
theorem norm_v14 (h1 : W (Proc.devRef .tc main_arg1) = x1) :
    StableHlo.after hostOps1 W (Proc.devRef .tc main_v14) = val_main_v13 (F := F) x1 := by
  after_results
  rw [h1]
  rfl

/-- The inverse square roots of the degrees. -/
theorem norm_v15 (h1 : W (Proc.devRef .tc main_arg1) = x1) :
    StableHlo.after hostOps1 W (Proc.devRef .tc main_v15) = val_main_v14 (F := F) x1 := by
  after_results
  rw [h1]
  rfl

/-- The zero that a node of degree zero gets in place of the inverse square root. -/
theorem norm_cst2 :
    StableHlo.after hostOps1 W (Proc.devRef .tc main_cst_2) = val_main_cst_2 (F := F) := by
  after_results
  rfl

/-- The node weights: the inverse square root where the degree is positive, zero elsewhere. -/
theorem where_v16 (h14 : W (Proc.devRef .tc main_v14) = val_main_v13 (F := F) x1)
    (h15 : W (Proc.devRef .tc main_v15) = val_main_v14 (F := F) x1)
    (hc : W (Proc.devRef .tc main_cst_2) = val_main_cst_2 (F := F)) :
    StableHlo.after hostOps1_1 W (Proc.devRef .tc main_v16) = val_main_v15 (F := F) x1 := by
  after_results
  rw [h14, h15, hc]
  rfl

/-- The graph convolution before its relu: the projected rows gathered at the source nodes, weighted by the product of
    the two end nodes' weights, scatter-added at the target nodes, plus the bias. -/
theorem conv_v47 (h5 : W (Proc.devRef .tc main_v5) = val_main_v4 (F := F) x1)
    (h8 : W (Proc.devRef .tc main_v8) = val_main_v7 (F := F) x1)
    (h16 : W (Proc.devRef .tc main_v16) = val_main_v15 (F := F) x1)
    (hp : W (Proc.devRef .tc main_v1) = val_main_v0 (F := F) x0 x2)
    (h3 : W (Proc.devRef .tc main_arg3) = x3) :
    StableHlo.after hostOps1_2 W (Proc.devRef .tc main_v47) = val_main_v46 (F := F) x0 x1 x2 x3 := by
  after_results_simp
  rw [h5, h8, h16, hp, h3]
  rfl

/-- The graph convolution's relu. -/
theorem relu_v48 (h47 : W (Proc.devRef .tc main_v47) = val_main_v46 (F := F) x0 x1 x2 x3) :
    StableHlo.after hostOps1_3 W (Proc.devRef .tc main_v48) = val_main_v47 (F := F) x0 x1 x2 x3 := by
  after_results
  rw [h47]
  rfl

/-- The encoder's linear layer: the latent array. -/
theorem enc_v52 (h48 : W (Proc.devRef .tc main_v48) = val_main_v47 (F := F) x0 x1 x2 x3)
    (h4 : W (Proc.devRef .tc main_arg4) = x4) (h5 : W (Proc.devRef .tc main_arg5) = x5) :
    StableHlo.after hostOps1_4 W (Proc.devRef .tc main_v52) = val_main_v51 (F := F) x0 x1 x2 x3 x4 x5 := by
  after_results
  rw [h48, h4, h5]
  rfl

/-- The decoder's first linear layer, applied to the latent array. -/
theorem dec_v56 (h48 : W (Proc.devRef .tc main_v48) = val_main_v47 (F := F) x0 x1 x2 x3)
    (h4 : W (Proc.devRef .tc main_arg4) = x4) (h5 : W (Proc.devRef .tc main_arg5) = x5)
    (h6 : W (Proc.devRef .tc main_arg6) = x6) (h7 : W (Proc.devRef .tc main_arg7) = x7) :
    StableHlo.after hostOps1_4 W (Proc.devRef .tc main_v56) = val_main_v55 (F := F) x0 x1 x2 x3 x4 x5 x6 x7 := by
  after_results
  rw [h48, h4, h5, h6, h7]
  rfl

/-- The decoder's first relu. -/
theorem relu_v57 (h56 : W (Proc.devRef .tc main_v56) = val_main_v55 (F := F) x0 x1 x2 x3 x4 x5 x6 x7) :
    StableHlo.after hostOps1_5 W (Proc.devRef .tc main_v57) = val_main_v56 (F := F) x0 x1 x2 x3 x4 x5 x6 x7 := by
  after_results
  rw [h56]
  rfl

end Stretches

/-! ## Buffers no item has written yet hold their launch contents -/

/-- After the projection's region: a reference that neither the first host stretch nor the region writes. -/
theorem V2_arg (c : Dev nD) (r : Ref sig .tc) (h2 : r ∉ ([main_v1] : List (Ref sig .tc))) (h1 : r ∉ hostOps0_W) :
    V2 m o c r = m ((c : Thread nD τ).loc r) :=
  (V2_of m o c r h2).trans ((V1_of m c r h1).trans rfl)

/-- The same after the graph normalisation's two stretches. -/
theorem V4_arg (c : Dev nD) (r : Ref sig .tc) (h2 : r ∉ ([main_v1] : List (Ref sig .tc))) (h1 : r ∉ hostOps0_W)
    (h3 : r ∉ hostOps1_W) (h4 : r ∉ hostOps1_1_W) :
    V4 m o c r = m ((c : Thread nD τ).loc r) :=
  (V4_of m o c r h4).trans ((V3_of m o c r h3).trans (V2_arg m o c r h2 h1))

/-- The same up to the graph convolution's relu. -/
theorem V6_arg (c : Dev nD) (r : Ref sig .tc) (h2 : r ∉ ([main_v1] : List (Ref sig .tc))) (h1 : r ∉ hostOps0_W)
    (h3 : r ∉ hostOps1_W) (h4 : r ∉ hostOps1_1_W) (h5 : r ∉ hostOps1_2_W) (h6 : r ∉ hostOps1_3_W) :
    V6 m o c r = m ((c : Thread nD τ).loc r) :=
  (V6_of m o c r h6).trans ((V5_of m o c r h5).trans (V4_arg m o c r h2 h1 h3 h4))

/-! ## The chain on the program's buffers -/

/-- The graph convolution's activations after their relu: the reference's, as a function of the arguments. -/
theorem chain_conv (c : Dev nD)
    (hh : o 2 main_v1 c = val_main_v0 (F := F) (m ((c : Thread nD τ).loc main_arg0)) (m ((c : Thread nD τ).loc main_arg2))) :
    V6 m o c main_v48 = val_main_v47 (F := F) (m ((c : Thread nD τ).loc main_arg0)) (m ((c : Thread nD τ).loc main_arg1))
      (m ((c : Thread nD τ).loc main_arg2)) (m ((c : Thread nD τ).loc main_arg3)) := by
  -- the edge list, as launched
  have hA1 : V2 m o c main_arg1 = m ((c : Thread nD τ).loc main_arg1) := V2_arg m o c main_arg1 (by decide) (by decide)
  -- the graph normalisation's results; the node weights
  have h16 : V4 m o c main_v16 = val_main_v15 (F := F) (m ((c : Thread nD τ).loc main_arg1)) :=
    where_v16 (V3 m o c) _ (norm_v14 (V2 m o c) _ hA1) (norm_v15 (V2 m o c) _ hA1) (norm_cst2 (V2 m o c))
  -- the two node lists ride through the stretch that selects the node weights
  have h5 : V4 m o c main_v5 = val_main_v4 (F := F) (m ((c : Thread nD τ).loc main_arg1)) :=
    (V4_of m o c main_v5 (by decide)).trans (norm_v5 (V2 m o c) _ hA1)
  have h8 : V4 m o c main_v8 = val_main_v7 (F := F) (m ((c : Thread nD τ).loc main_arg1)) :=
    (V4_of m o c main_v8 (by decide)).trans (norm_v8 (V2 m o c) _ hA1)
  -- the projection's result rides through both
  have hp : V4 m o c main_v1 = val_main_v0 (F := F) (m ((c : Thread nD τ).loc main_arg0)) (m ((c : Thread nD τ).loc main_arg2)) :=
    (V4_of m o c main_v1 (by decide)).trans ((V3_of m o c main_v1 (by decide)).trans ((Function.update_self _ _ _).trans hh))
  have h3 : V4 m o c main_arg3 = m ((c : Thread nD τ).loc main_arg3) :=
    V4_arg m o c main_arg3 (by decide) (by decide) (by decide) (by decide)
  exact relu_v48 (V5 m o c) _ _ _ _ (conv_v47 (V4 m o c) _ _ _ _ h5 h8 h16 hp h3)

/-- The latent array (the program's second result) after the encoder's host stretch. -/
theorem chain_latent (c : Dev nD)
    (hh : o 2 main_v1 c = Cert.ReferenceIdeal.ReadP.val_main_v0 (F := F) (m ((c : Thread nD τ).loc main_arg0)) (m ((c : Thread nD τ).loc main_arg2))) :
    V7 m o c main_v52 = Cert.ReferenceIdeal.ReadP.val_main_v51 (F := F) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5)) := by
  exact enc_v52 (V6 m o c) _ _ _ _ _ _ (chain_conv m o c hh)
    (V6_arg m o c main_arg4 (by decide) (by decide) (by decide) (by decide) (by decide) (by decide))
    (V6_arg m o c main_arg5 (by decide) (by decide) (by decide) (by decide) (by decide) (by decide))

/-- The decoder's hidden activations (before their rounding to bf16) after the decoder's first host stretch. -/
theorem chain_dec1 (c : Dev nD)
    (hh : o 2 main_v1 c = Cert.ReferenceIdeal.ReadP.val_main_v0 (F := F) (m ((c : Thread nD τ).loc main_arg0)) (m ((c : Thread nD τ).loc main_arg2))) :
    V8 m o c main_v57 = Cert.ReferenceIdeal.ReadP.val_main_v56 (F := F) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5))
      (m ((c : Thread nD τ).loc main_arg6)) (m ((c : Thread nD τ).loc main_arg7)) := by
  exact relu_v57 (V7 m o c) _ _ _ _ _ _ _ _ (dec_v56 (V6 m o c) _ _ _ _ _ _ _ _ (chain_conv m o c hh)
    (V6_arg m o c main_arg4 (by decide) (by decide) (by decide) (by decide) (by decide) (by decide))
    (V6_arg m o c main_arg5 (by decide) (by decide) (by decide) (by decide) (by decide) (by decide))
    (V6_arg m o c main_arg6 (by decide) (by decide) (by decide) (by decide) (by decide) (by decide))
    (V6_arg m o c main_arg7 (by decide) (by decide) (by decide) (by decide) (by decide) (by decide)))

end Cert.KernelIdeal.Chain

end
-- ==== Proof.Ends.lean ====
/-
  The single host operations at the two regions' doors: the first host stretch rounds the projection's weights to
  bf16; the last rounds the decoder's hidden activations and its weights to bf16 and lays the bias out as a row.
-/
import proofs.«115824_j30597347017287_1_alg».proof.Proof.Gen.KernelIdeal.Regions
import Idealize.ShloMosaic.Lib.StableHlo.Run

set_option maxRecDepth 16384

noncomputable section

namespace Cert.KernelIdeal.Ends

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

variable (m : (ℓ : Loc nD τ sig) → Buf (Elt F) ℓ) (o : Outs (F := F))

/-! The two stretches on ANY contents `W` of the buffers: each result buffer holds its one operation's value of the
    operand's contents in `W`; the stretch's other operations write other buffers. -/

theorem last_v58 (W : Valuation τ sig (Elt F)) :
    StableHlo.after hostOps1_6 W (Proc.devRef .tc main_v58) = truncf .bf16 (W (Proc.devRef .tc main_v57)) bitsLt_bf16_f32 := by
  after_results <;> rfl
theorem last_v59 (W : Valuation τ sig (Elt F)) :
    StableHlo.after hostOps1_6 W (Proc.devRef .tc main_v59) = truncf .bf16 (W (Proc.devRef .tc main_arg8)) bitsLt_bf16_f32 := by
  after_results <;> rfl
theorem last_v60 (W : Valuation τ sig (Elt F)) :
    StableHlo.after hostOps1_6 W (Proc.devRef .tc main_v60) = shapeCast S1x20000 (W (Proc.devRef .tc main_arg9)) shapeCasts_S20000_S1x20000 := by
  after_results <;> rfl
theorem first_v0 (W : Valuation τ sig (Elt F)) :
    StableHlo.after hostOps0 W (Proc.devRef .tc main_v0) = truncf .bf16 (W (Proc.devRef .tc main_arg2)) bitsLt_bf16_f32 := by
  after_results <;> rfl

/-- What the last host stretch hands the decoder region: the activations rounded, the weights rounded, the bias as a row. -/
theorem VB_v58 (c : Dev nD) : V9 m o c main_v58 = truncf .bf16 (V8 m o c main_v57) bitsLt_bf16_f32 := by
  exact last_v58 (V8 m o c)
theorem VB_v59 (c : Dev nD) : V9 m o c main_v59 = truncf .bf16 (m ((c : Thread nD τ).loc main_arg8)) bitsLt_bf16_f32 := by
  -- no item before the last stretch writes the argument: it still holds its launch contents
  have h : V8 m o c main_arg8 = m ((c : Thread nD τ).loc main_arg8) :=
    (V8_of m o c main_arg8 (by decide)).trans <| (V7_of m o c main_arg8 (by decide)).trans <|
    (V6_of m o c main_arg8 (by decide)).trans <| (V5_of m o c main_arg8 (by decide)).trans <|
    (V4_of m o c main_arg8 (by decide)).trans <| (V3_of m o c main_arg8 (by decide)).trans <|
    (V2_of m o c main_arg8 (by decide)).trans <| (V1_of m c main_arg8 (by decide)).trans rfl
  exact (last_v59 (V8 m o c)).trans (congrArg (fun x => truncf .bf16 x bitsLt_bf16_f32) h)
theorem VB_v60 (c : Dev nD) : V9 m o c main_v60 = shapeCast S1x20000 (m ((c : Thread nD τ).loc main_arg9)) shapeCasts_S20000_S1x20000 := by
  have h : V8 m o c main_arg9 = m ((c : Thread nD τ).loc main_arg9) :=
    (V8_of m o c main_arg9 (by decide)).trans <| (V7_of m o c main_arg9 (by decide)).trans <|
    (V6_of m o c main_arg9 (by decide)).trans <| (V5_of m o c main_arg9 (by decide)).trans <|
    (V4_of m o c main_arg9 (by decide)).trans <| (V3_of m o c main_arg9 (by decide)).trans <|
    (V2_of m o c main_arg9 (by decide)).trans <| (V1_of m c main_arg9 (by decide)).trans rfl
  exact (last_v60 (V8 m o c)).trans (congrArg (fun x => shapeCast S1x20000 x shapeCasts_S20000_S1x20000) h)
/-- The weights the first host stretch hands the projection region: rounded. -/
theorem VA_v0 (c : Dev nD) : V1 m c main_v0 = truncf .bf16 (m ((c : Thread nD τ).loc main_arg2)) bitsLt_bf16_f32 := by
  -- the first stretch's one operation, on the launch contents
  exact first_v0 (V0 m c)

end Cert.KernelIdeal.Ends

end
-- ==== Proof.Bridge.lean ====
/-
  The kernel's two results over the extended reals are the reference's, as functions of the arguments. The
  projection's array, a sum over the 20000 features entry by entry, is the reference's first dot_general (rounding the
  weights to bf16 is the identity on the extended reals); the shared host operations carry that to the latent array and to
  the decoder's hidden activations; the decoder's array, a sum over the 256 hidden channels plus the bias entry by entry,
  is the reference's last dot_general plus its broadcast bias.
-/
import proofs.«115824_j30597347017287_1_alg».proof.Proof.Run
import proofs.«115824_j30597347017287_1_alg».proof.Proof.Value0
import proofs.«115824_j30597347017287_1_alg».proof.Proof.Value1
import proofs.«115824_j30597347017287_1_alg».proof.Proof.Chain
import proofs.«115824_j30597347017287_1_alg».proof.Proof.Ends
import proofs.«115824_j30597347017287_1_alg».proof.Proof.RefRead

set_option maxRecDepth 16384

noncomputable section

namespace Cert.KernelIdeal.Bridge

open Cert.KernelIdeal Cert.KernelIdeal.Gen Cert.KernelIdeal.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable (m : (ℓ : Loc nD τ sig) → Buf (Elt Ideal) ℓ)

open Idealize.ShloMosaic.ValueIdx in
/-- The reference's operand indices of its first product are the coordinates' pairs. -/
theorem lidx_v0_eq (i : Cert.ReferenceIdeal.S8192x256.Idx) (k : Fin 20000) :
    Cert.ReferenceIdeal.ReadP.lidx_main_v0 i k = ix2 (i 0) k :=
  funext fun a => by match a with | ⟨0, _⟩ => rfl | ⟨1, _⟩ => rfl
open Idealize.ShloMosaic.ValueIdx in
theorem ridx_v0_eq (i : Cert.ReferenceIdeal.S8192x256.Idx) (k : Fin 20000) :
    Cert.ReferenceIdeal.ReadP.ridx_main_v0 i k = ix2 k (i 1) :=
  funext fun a => by match a with | ⟨0, _⟩ => rfl | ⟨1, _⟩ => rfl

open Idealize.ShloMosaic.ValueIdx in
/-- Those of its last product likewise. -/
theorem lidx_v57_eq (i : Cert.ReferenceIdeal.S8192x20000.Idx) (k : Fin 256) :
    Cert.ReferenceIdeal.ReadP.lidx_main_v57 i k = ix2 (i 0) k :=
  funext fun a => by match a with | ⟨0, _⟩ => rfl | ⟨1, _⟩ => rfl
open Idealize.ShloMosaic.ValueIdx in
theorem ridx_v57_eq (i : Cert.ReferenceIdeal.S8192x20000.Idx) (k : Fin 256) :
    Cert.ReferenceIdeal.ReadP.ridx_main_v57 i k = ix2 k (i 1) :=
  funext fun a => by match a with | ⟨0, _⟩ => rfl | ⟨1, _⟩ => rfl
open Idealize.ShloMosaic.ValueIdx in
/-- The bias read through the reference's two broadcasts at an entry of column `i 1` is the bias at `i 1`. -/
theorem idx_v58_v59_eq (i : Cert.ReferenceIdeal.S8192x20000.Idx) :
    Cert.ReferenceIdeal.ReadP.idx_main_v58 (Cert.ReferenceIdeal.ReadP.idx_main_v59 i) = ix1 (i 1) :=
  funext fun a => by match a with | ⟨0, _⟩ => rfl

/-- The projection region's result array is what the reference's first operation computes. -/
theorem proj_eq (c : Dev nD) :
    outs m 2 main_v1 c = Cert.ReferenceIdeal.ReadP.val_main_v0 (F := Ideal) (m ((c : Thread nD τ).loc main_arg0)) (m ((c : Thread nD τ).loc main_arg2)) := by
  rw [outs_v1, Val0.final0 (VA m) c]
  have h0 : VA m c main_arg0 = m ((c : Thread nD τ).loc main_arg0) := V1_of m c main_arg0 (by decide)
  have h1 : VA m c main_v0 = m ((c : Thread nD τ).loc main_arg2) := Ends.VA_v0 m c
  rw [h0, h1]
  funext i
  rw [Cert.ReferenceIdeal.ReadP.val_main_v0_apply]
  unfold Cert.Spec.proj
  refine Finset.sum_congr rfl fun k _ => ?_
  rw [lidx_v0_eq, ridx_v0_eq]
  rfl

/-- The latent array is the reference's. -/
theorem latent_eq (c : Dev nD) :
    VB m c main_v52 = Cert.ReferenceIdeal.ReadP.val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [show VB m c main_v52 = V8 m (outs m) c main_v52 from V9_of m (outs m) c main_v52 (by decide),
    V8_of m (outs m) c main_v52 (by decide)]
  exact Chain.chain_latent m (outs m) c (proj_eq m c)

/-- The decoder's last layer of what the last host stretch hands the decoder region is the reference's reconstruction. -/
theorem recon_eq (c : Dev nD) :
    Cert.Spec.dec (VB m c main_v58) (VB m c main_v59) (VB m c main_v60)
      = Cert.ReferenceIdeal.ReadP.val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have h58 : VB m c main_v58 = Cert.ReferenceIdeal.ReadP.val_main_v56 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6))
      (m ((c : Thread nD τ).loc main_arg7)) :=
    (Ends.VB_v58 m (outs m) c).trans (Chain.chain_dec1 m (outs m) c (proj_eq m c))
  have h59 : VB m c main_v59 = m ((c : Thread nD τ).loc main_arg8) := Ends.VB_v59 m (outs m) c
  have h60 : VB m c main_v60 = shapeCast S1x20000 (m ((c : Thread nD τ).loc main_arg9)) shapeCasts_S20000_S1x20000 :=
    Ends.VB_v60 m (outs m) c
  rw [h58, h59, h60]
  funext i
  unfold Cert.Spec.dec
  rw [Cert.ReferenceIdeal.ReadP.val_main_v60_apply, Cert.ReferenceIdeal.ReadP.val_main_v57_apply,
    Cert.ReferenceIdeal.ReadP.val_main_v59_apply, Cert.ReferenceIdeal.ReadP.val_main_v58_apply,
    idx_v58_v59_eq, Ideal.addf_def]
  refine congrArg₂ (· + ·) ?_ ?_
  · refine Finset.sum_congr rfl fun k _ => ?_
    rw [lidx_v57_eq, ridx_v57_eq]
    rfl
  · exact Idealize.ShloMosaic.ValueIdx.shapeCast_a_1a_apply (a := 20000) (m ((c : Thread nD τ).loc main_arg9))
      shapeCasts_S20000_S1x20000 0 (i 1)

end Cert.KernelIdeal.Bridge

end
-- ==== Proof.RefSide.lean ====
/-
  The reference side: the host program's run and its stages read at an index.
-/
import proofs.«115824_j30597347017287_1_alg».proof.Defs
import proofs.«115824_j30597347017287_1_alg».proof.Proof.RefRun
import proofs.«115824_j30597347017287_1_alg».proof.Proof.RefRead

noncomputable section

namespace Cert.RefSide

open Idealize.ShloMosaic Idealize.ShloMosaic.TcCoe Idealize.SL.Sem

/-- The host program terminates from every memory with its ten arguments as they were at the launch: the run's
    postcondition states the two results first, and the arguments' part is what remains after them. -/
theorem frame_ri [Cert.ReferenceIdeal.Facts] [Cert.Pre_finite_inputs.Facts] : Cert.frame_ReferenceIdeal := fun m ρ _ =>
  (θ_run Cert.ReferenceIdeal.defs _ _).mono (fun _ h c => (h c).2.2) (Cert.ReferenceIdeal.ValueP.run (F := Ideal) m ρ)

end Cert.RefSide

end
-- ==== Proof.lean ====
/-
  The certificate of a graph autoencoder's forward pass: a graph convolution (project every node's 20000 features onto
  256 channels, aggregate over the normalised adjacency with self loops, add a bias), a relu and a linear encoder to 64
  latent channels, and a two-layer decoder back to 20000 features. The kernel computes the two large matrix products —
  the projection and the decoder's last layer — block by block on the TensorCore with bf16 operands and f32
  accumulation, and everything between them by the reference's own host operations.

  Over the extended reals rounding to bf16 is the identity and a product accumulated from zero is the plain sum over the
  contracted axis, so both large products are the reference's dot_generals entry by entry; the host operations in between
  are the reference's, operation for operation, applied to equal values. No law beyond commutativity and associativity of
  the sum is used, so the finiteness of the inputs is never opened.

  The decoder's last column block overhangs its arrays (20000 = 9 * 2048 + 1568). Over the extended reals an entry in
  column j of product-plus-bias reads only column j of the weights and of the bias, so the columns inside the array, all that
  is written back, are named whatever the overhang holds. At the word level the product is an opaque function of its whole
  operands; there the frame says nothing of what that region leaves: nothing runs after it and none of its arrays is an
  argument.
-/
import proofs.«115824_j30597347017287_1_alg».proof.Defs
import proofs.«115824_j30597347017287_1_alg».proof.Proof.Gen.Kernel
import proofs.«115824_j30597347017287_1_alg».proof.Proof.Gen.KernelIdeal
import proofs.«115824_j30597347017287_1_alg».proof.Proof.Gen.ReferenceIdeal
import proofs.«115824_j30597347017287_1_alg».proof.Proof.Gen.Pre_finite_inputs
import proofs.«115824_j30597347017287_1_alg».proof.Proof.KFrame
import proofs.«115824_j30597347017287_1_alg».proof.Proof.Frame
import proofs.«115824_j30597347017287_1_alg».proof.Proof.Vals
import proofs.«115824_j30597347017287_1_alg».proof.Proof.Bridge
import proofs.«115824_j30597347017287_1_alg».proof.Proof.RefSide
import Idealize.ShloMosaic.Adequacy
import Idealize.ShloMosaic.Init

noncomputable section

namespace Cert.Proof

open Idealize.ShloMosaic Idealize.ShloMosaic.TcCoe Idealize.SL.Sem

/-- The word-level program runs and leaves its arguments. -/
theorem frame_k : Cert.frame_Kernel := fun m ρ _ => Cert.Kernel.Frame.frame (F := Bits) m ρ

/-- So does the idealized program. -/
theorem frame_ki : Cert.frame_KernelIdeal := fun m ρ _ => Cert.KernelIdeal.Frame.frame (F := Ideal) m ρ

/-- The ideal pass rewrote nothing. -/
theorem preserves : Cert.preserves_Kernel_KernelIdeal := trivial

/-- Both programs, from memories agreeing on the arguments, end with the reference's two result terms. -/
theorem algebraic : Cert.algebraic_KernelIdeal_ReferenceIdeal := by
  intro m ρ m' ρ' _ hagree
  refine ⟨fun c => Cert.ReferenceIdeal.ValueP.res_main_v60 m' c, fun c => Cert.ReferenceIdeal.ValueP.res_main_v51 m' c, ?_,
    Cert.ReferenceIdeal.ValueP.run (F := Ideal) m' ρ'⟩
  refine (θ_run Cert.KernelIdeal.defs _ _).mono (fun r h c => ?_) (Cert.KernelIdeal.Vals.run_values m ρ)
  obtain ⟨h61, h52, hargs⟩ := h c
  obtain ⟨e0, e1, e2, e3, e4, e5, e6, e7, e8, e9⟩ := hagree c
  refine ⟨?_, ?_, hargs⟩
  · beta_reduce
    rw [h61, Cert.KernelIdeal.Bridge.recon_eq m c, Cert.ReferenceIdeal.ReadP.val_main_v60_eq m' c, e0, e1, e2, e3, e4, e5, e6, e7, e8, e9]
  · beta_reduce
    rw [h52, Cert.KernelIdeal.Bridge.latent_eq m c, Cert.ReferenceIdeal.ReadP.val_main_v51_eq m' c, e0, e1, e2, e3, e4, e5]

theorem claim : Cert.Claim := ⟨Cert.Kernel.Gen.facts, Cert.KernelIdeal.Gen.facts, Cert.ReferenceIdeal.Gen.facts, Cert.Pre_finite_inputs.Gen.facts,
  frame_k, frame_ki, Cert.RefSide.frame_ri, preserves, algebraic⟩

end Cert.Proof

end
